-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v117) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S800000 : Shape := ⟨1, ![800000]⟩
abbrev S3x50000 : Shape := ⟨2, ![3, 50000]⟩
abbrev S3x256x96 : Shape := ⟨3, ![3, 256, 96]⟩
abbrev S96 : Shape := ⟨1, ![96]⟩
abbrev S2x800000 : Shape := ⟨2, ![2, 800000]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S800000 : S_.BroadcastsInDim S800000 (![] : Fin 0 → Fin S800000.rank)
  reducesTo_S800000_S_d0 : S800000.ReducesTo [0] S_
  bcast_S_S3x50000 : S_.BroadcastsInDim S3x50000 (![] : Fin 0 → Fin S3x50000.rank)
  reducesTo_S3x50000_S_d0_1 : S3x50000.ReducesTo [0, 1] S_
  bcast_S_S3x256x96 : S_.BroadcastsInDim S3x256x96 (![] : Fin 0 → Fin S3x256x96.rank)
  reducesTo_S3x256x96_S_d0_1_2 : S3x256x96.ReducesTo [0, 1, 2] S_
  bcast_S_S96 : S_.BroadcastsInDim S96 (![] : Fin 0 → Fin S96.rank)
  reducesTo_S96_S_d0 : S96.ReducesTo [0] S_

variable [Facts]

def fn_part1 {F : FTy → Type} [FloatOps F] (main_arg4 : FVec F S96 .f32) (main_v13 : IVec S_ 1) (main_v16 : IVec S3x256x96 1) : IVec S_ 1 :=
  let main_c_5 : IVec S_ 1 := constantI S_ 1 1#1
  let main_v17 : IVec S_ 1 := (fun x v => Host.reduce IntOp.andi x v reducesTo_S3x256x96_S_d0_1_2 h_S_) main_v16 main_c_5
  let main_v18 : IVec S_ 1 := andi main_v13 main_v17
  let main_v19 : FVec F S96 .f32 := Host.absf main_arg4
  let main_cst_6 : FVec F S_ .f32 := constant S_ .f32 0x7F800000#32
  let main_v20 : FVec F S96 .f32 := broadcastInDim S96 ![] bcast_S_S96 main_cst_6
  let main_v21 : IVec S96 1 := cmpf .olt main_v19 main_v20
  let main_c_7 : IVec S_ 1 := constantI S_ 1 1#1
  let main_v22 : IVec S_ 1 := (fun x v => Host.reduce IntOp.andi x v reducesTo_S96_S_d0 h_S_) main_v21 main_c_7
  let main_v23 : IVec S_ 1 := andi main_v18 main_v22
  main_v23

def fn {F : FTy → Type} [FloatOps F] (main_arg0 : FVec F S50000x256 .f32) (main_arg1 : FVec F S800000 .f32) (main_arg2 : FVec F S3x50000 .f32) (main_arg3 : FVec F S3x256x96 .f32) (main_arg4 : FVec F S96 .f32) (main_arg5 : IVec S2x800000 32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S800000 .f32 := Host.absf main_arg1
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S3x50000 .f32 := Host.absf main_arg2
  let main_cst_2 : FVec F S_ .f32 := constant S_ .f32 0x7F800000#32
  let main_v10 : FVec F S3x50000 .f32 := broadcastInDim S3x50000 ![] bcast_S_S3x50000 main_cst_2
  let main_v11 : IVec S3x50000 1 := cmpf .olt main_v9 main_v10
  let main_c_3 : IVec S_ 1 := constantI S_ 1 1#1
  let main_v12 : IVec S_ 1 := (fun x v => Host.reduce IntOp.andi x v reducesTo_S3x50000_S_d0_1 h_S_) main_v11 main_c_3
  let main_v13 : IVec S_ 1 := andi main_v8 main_v12
  let main_v14 : FVec F S3x256x96 .f32 := Host.absf main_arg3
  let main_cst_4 : FVec F S_ .f32 := constant S_ .f32 0x7F800000#32
  let main_v15 : FVec F S3x256x96 .f32 := broadcastInDim S3x256x96 ![] bcast_S_S3x256x96 main_cst_4
  let main_v16 : IVec S3x256x96 1 := cmpf .olt main_v14 main_v15
  fn_part1 (F := F) main_arg4 main_v13 main_v16
-- ==== Kernel.lean ====
abbrev S50000x256 : Shape := ⟨2, ![50000, 256]⟩
abbrev S800000 : Shape := ⟨1, ![800000]⟩
abbrev S3x50000 : Shape := ⟨2, ![3, 50000]⟩
abbrev S3x256x96 : Shape := ⟨3, ![3, 256, 96]⟩
abbrev S96 : Shape := ⟨1, ![96]⟩
abbrev S2x800000 : Shape := ⟨2, ![2, 800000]⟩
abbrev S1x800000 : Shape := ⟨2, ![1, 800000]⟩
abbrev S50000x3 : Shape := ⟨2, ![50000, 3]⟩
abbrev S3x50000x96 : Shape := ⟨3, ![3, 50000, 96]⟩
abbrev S2000x256 : Shape := ⟨2, ![2000, 256]⟩
abbrev S2000x3 : Shape := ⟨2, ![2000, 3]⟩
abbrev S3x2000x96 : Shape := ⟨3, ![3, 2000, 96]⟩
abbrev S1x256x96 : Shape := ⟨3, ![1, 256, 96]⟩
abbrev S256x96 : Shape := ⟨2, ![256, 96]⟩
abbrev S2000x96 : Shape := ⟨2, ![2000, 96]⟩
abbrev S2000x1 : Shape := ⟨2, ![2000, 1]⟩
abbrev S2000 : Shape := ⟨1, ![2000]⟩
abbrev S1x2000x96 : Shape := ⟨3, ![1, 2000, 96]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S50000x3x96 : Shape := ⟨3, ![50000, 3, 96]⟩
abbrev S50000x288 : Shape := ⟨2, ![50000, 288]⟩
abbrev S800000x288 : Shape := ⟨2, ![800000, 288]⟩
abbrev S50000x96 : Shape := ⟨2, ![50000, 96]⟩
abbrev S1x96 : Shape := ⟨2, ![1, 96]⟩

abbrev nBuf : Space → Nat
  | .hbm => 46
  | .vmem => 18
  | .smem => 0
  | _ => 0

abbrev bufTy : (tb : Table) → Fin (tcTables nBuf tb) → BufTy
  | .hbm, ⟨0, _⟩ => ⟨S50000x256, .f32⟩
  | .hbm, ⟨1, _⟩ => ⟨S800000, .f32⟩
  | .hbm, ⟨2, _⟩ => ⟨S3x50000, .f32⟩
  | .hbm, ⟨3, _⟩ => ⟨S3x256x96, .f32⟩
  | .hbm, ⟨4, _⟩ => ⟨S96, .f32⟩
  | .hbm, ⟨5, _⟩ => ⟨S2x800000, .i32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S50000x3, .f32⟩
  | .hbm, ⟨11, _⟩ => ⟨S3x50000x96, .f32⟩
  | .hbm, ⟨12, _⟩ => ⟨S_, .f32⟩
  | .hbm, ⟨13, _⟩ => ⟨S800000, .f32⟩
  | .hbm, ⟨14, _⟩ => ⟨S_, .f32⟩
  | .hbm, ⟨15, _⟩ => ⟨S50000, .f32⟩
  | .hbm, ⟨16, _⟩ => ⟨S800000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000x1, .f32⟩
  | .hbm, ⟨25, _⟩ => ⟨S50000x3x96, .f32⟩
  | .hbm, ⟨26, _⟩ => ⟨S50000x288, .f32⟩
  | .hbm, ⟨27, _⟩ => ⟨S800000x1, .f32⟩
  | .hbm, ⟨28, _⟩ => ⟨S_, .i32⟩
  | .hbm, ⟨29, _⟩ => ⟨S800000, .i32⟩
  | .hbm, ⟨30, _⟩ => ⟨S800000, .i1⟩
  | .hbm, ⟨31, _⟩ => ⟨S_, .i32⟩
  | .hbm, ⟨32, _⟩ => ⟨S800000, .i32⟩
  | .hbm, ⟨33, _⟩ => ⟨S800000, .i32⟩
  | .hbm, ⟨34, _⟩ => ⟨S800000, .i32⟩
  | .hbm, ⟨35, _⟩ => ⟨S800000x1, .i32⟩
  | .hbm, ⟨36, _⟩ => ⟨S800000x288, .f32⟩
  | .hbm, ⟨37, _⟩ => ⟨S800000x288, .f32⟩
  | .hbm, ⟨38, _⟩ => ⟨S800000x288, .f32⟩
  | .hbm, ⟨39, _⟩ => ⟨S_, .f32⟩
  | .hbm, ⟨40, _⟩ => ⟨S50000x288, .f32⟩
  | .hbm, ⟨41, _⟩ => ⟨S800000x1, .i32⟩
  | .hbm, ⟨42, _⟩ => ⟨S50000x288, .f32⟩
  | .hbm, ⟨43, _⟩ => ⟨S50000x3x96, .f32⟩
  | .hbm, ⟨44, _⟩ => ⟨S3x50000x96, .f32⟩
  | .hbm, ⟨45, _⟩ => ⟨S50000x96, .f32⟩
  | .local _ .vmem, ⟨0, _⟩ => ⟨S2000x256, .f32⟩
  | .local _ .vmem, ⟨1, _⟩ => ⟨S2000x256, .f32⟩
  | .local _ .vmem, ⟨2, _⟩ => ⟨S3x256x96, .f32⟩
  | .local _ .vmem, ⟨3, _⟩ => ⟨S2000x3, .f32⟩
  | .local _ .vmem, ⟨4, _⟩ => ⟨S2000x3, .f32⟩
  | .local _ .vmem, ⟨5, _⟩ => ⟨S3x2000x96, .f32⟩
  | .local _ .vmem, ⟨6, _⟩ => ⟨S3x2000x96, .f32⟩
  | .local _ .vmem, ⟨7, _⟩ => ⟨S3x2000x96, .f32⟩
  | .local _ .vmem, ⟨8, _⟩ => ⟨S3x2000x96, .f32⟩
  | .local _ .vmem, ⟨9, _⟩ => ⟨S3x2000x96, .f32⟩
  | .local _ .vmem, ⟨10, _⟩ => ⟨S3x2000x96, .f32⟩
  | .local _ .vmem, ⟨11, _⟩ => ⟨S2000x1, .f32⟩
  | .local _ .vmem, ⟨12, _⟩ => ⟨S2000x1, .f32⟩
  | .local _ .vmem, ⟨13, _⟩ => ⟨S2000x3, .f32⟩
  | .local _ .vmem, ⟨14, _⟩ => ⟨S2000x3, .f32⟩
  | .local _ .vmem, ⟨15, _⟩ => ⟨S96, .f32⟩
  | .local _ .vmem, ⟨16, _⟩ => ⟨S2000x96, .f32⟩
  | .local _ .vmem, ⟨17, _⟩ => ⟨S2000x96, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c : Ref sig .tc := ⟨.hbm, 28, rfl⟩
abbrev main_v18 : Ref sig .tc := ⟨.hbm, 29, rfl⟩
abbrev main_v19 : Ref sig .tc := ⟨.hbm, 30, rfl⟩
abbrev main_c_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem3_1 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x256x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x2000x96 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S3x2000x96 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S3x2000x96 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2000x3 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S96 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x96 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  transposes_S3x50000_S50000x3_1_0 : S3x50000.Transposes [1, 0] S50000x3
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S2000x3_S2000x3_0_0 : ∀ a, (![0, 0] : Fin 2 → Nat) a + S2000x3.size a ≤ S2000x3.size a
  h_S2000x3 : 0 < S2000x3.numel
  shapeCasts_S2000x3_S2000x3 : S2000x3.ShapeCasts S2000x3
  inb_S3x256x96_S1x256x96_0_0_0 : ∀ a, (![0, 0, 0] : Fin 3 → Nat) a + S1x256x96.size a ≤ S3x256x96.size a
  h_S1x256x96 : 0 < S1x256x96.numel
  shapeCasts_S1x256x96_S256x96 : S1x256x96.ShapeCasts S256x96
  slices_S2000x3_o0_0_S2000x1 : S2000x3.Slices ![0, 0] S2000x1
  shapeCasts_S2000x1_S2000 : S2000x1.ShapeCasts S2000
  shapeCasts_S2000_S2000x1 : S2000.ShapeCasts S2000x1
  broadcasts_S2000x1_S2000x96 : S2000x1.Broadcasts S2000x96
  inb_S3x2000x96_S1x2000x96_0_0_0 : ∀ a, (![0, 0, 0] : Fin 3 → Nat) a + S1x2000x96.size a ≤ S3x2000x96.size a
  h_S1x2000x96 : 0 < S1x2000x96.numel
  shapeCasts_S1x2000x96_S2000x96 : S1x2000x96.ShapeCasts S2000x96
  shapeCasts_S2000x96_S1x2000x96 : S2000x96.ShapeCasts S1x2000x96
  inb_S3x256x96_S1x256x96_1_0_0 : ∀ a, (![1, 0, 0] : Fin 3 → Nat) a + S1x256x96.size a ≤ S3x256x96.size a
  slices_S2000x3_o0_1_S2000x1 : S2000x3.Slices ![0, 1] S2000x1
  inb_S3x2000x96_S1x2000x96_1_0_0 : ∀ a, (![1, 0, 0] : Fin 3 → Nat) a + S1x2000x96.size a ≤ S3x2000x96.size a
  inb_S3x256x96_S1x256x96_2_0_0 : ∀ a, (![2, 0, 0] : Fin 3 → Nat) a + S1x256x96.size a ≤ S3x256x96.size a
  slices_S2000x3_o0_2_S2000x1 : S2000x3.Slices ![0, 2] S2000x1
  inb_S3x2000x96_S1x2000x96_2_0_0 : ∀ a, (![2, 0, 0] : Fin 3 → Nat) a + S1x2000x96.size a ≤ S3x2000x96.size a
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  transposes_S3x50000x96_S50000x3x96_1_0_2 : S3x50000x96.Transposes [1, 0, 2] S50000x3x96
  shapeCasts_S50000x3x96_S50000x288 : S50000x3x96.ShapeCasts S50000x288
  bcast_S800000x1_S800000x288_0_1 : S800000x1.BroadcastsInDim S800000x288 (![0, 1] : Fin 2 → Fin S800000x288.rank)
  bcast_S_S50000x288 : S_.BroadcastsInDim S50000x288 (![] : Fin 0 → Fin S50000x288.rank)
  shapeCasts_S50000x288_S50000x3x96 : S50000x288.ShapeCasts S50000x3x96
  transposes_S50000x3x96_S3x50000x96_1_0_2 : S50000x3x96.Transposes [1, 0, 2] S3x50000x96
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  inb_S96_S96_0 : ∀ a, (![0] : Fin 1 → Nat) a + S96.size a ≤ S96.size a
  h_S96 : 0 < S96.numel
  shapeCasts_S96_S1x96 : S96.ShapeCasts S1x96
  broadcasts_S1x96_S2000x96 : S1x96.Broadcasts S2000x96
  inb_S2000x96_S2000x96_0_0 : ∀ a, (![0, 0] : Fin 2 → Nat) a + S2000x96.size a ≤ S2000x96.size a
  h_S2000x96 : 0 < S2000x96.numel
  dot_S2000x256_S256x96_S2000x96_1_0_0_1_n_n_wf : DotDims.WF S2000x256 S256x96 S2000x96 [1] [0] [0] [1] [] []
  scatter_S50000_S800000x1_S800000_n_0_0_1_wf : ScatterDims.WF S50000 S800000x1 S800000 [] [0] [0] 1
  gather_S50000x288_S800000x1_S800000x288_1_0_n_n_0_1_1288_wf : GatherDims.WF S50000x288 S800000x1 S800000x288 [1] [0] [] [0] [] 1 ![1, 288]
  scatter_S50000x288_S800000x1_S800000x288_1_0_0_1_wf : ScatterDims.WF S50000x288 S800000x1 S800000x288 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x256x96.size a ≤ S3x256x96.size a
  hwx0_1 : ∀ i : grid0.Coords, EltTy.bits .f32 = 32 ∨ (Rect.block (s := S3x256x96) S3x256x96.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x3.size a ≤ S50000x3.size a
  hwx0_2 : ∀ i : grid0.Coords, EltTy.bits .f32 = 32 ∨ (Rect.block (s := S50000x3) S2000x3.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S3x2000x96.size a ≤ S3x50000x96.size a
  hwx0_3 : ∀ i : grid0.Coords, EltTy.bits .f32 = 32 ∨ (Rect.block (s := S3x50000x96) S3x2000x96.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S3x2000x96.size a ≤ S3x50000x96.size a
  hwx1_0 : ∀ i : grid1.Coords, EltTy.bits .f32 = 32 ∨ (Rect.block (s := S3x50000x96) S3x2000x96.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S3x2000x96.size a ≤ S3x50000x96.size a
  hwx1_1 : ∀ i : grid1.Coords, EltTy.bits .f32 = 32 ∨ (Rect.block (s := S3x50000x96) S3x2000x96.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x3.size a ≤ S50000x3.size a
  hwx1_3 : ∀ i : grid1.Coords, EltTy.bits .f32 = 32 ∨ (Rect.block (s := S50000x3) S2000x3.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S96.size a ≤ S96.size a
  hwx1_4 : ∀ i : grid1.Coords, EltTy.bits .f32 = 32 ∨ (Rect.block (s := S96) S96.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x96.size a ≤ S50000x96.size a
  hwx1_5 : ∀ i : grid1.Coords, EltTy.bits .f32 = 32 ∨ (Rect.block (s := S50000x96) S2000x96.size (cc1_transform_5 i) (hinb1_5 i)).WholeWords (EltTy.packing .f32)

variable [Facts₀]

def dot_S2000x256_S256x96_S2000x96_1_0_0_1_n_n : DotDims S2000x256 S256x96 S2000x96 where
  lhsContracting := [1]
  rhsContracting := [0]
  lhsNonContracting := [0]
  rhsNonContracting := [1]
  lhsBatch := []
  rhsBatch := []
  wf := dot_S2000x256_S256x96_S2000x96_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x288_S800000x1_S800000x288_1_0_n_n_0_1_1288 : GatherDims S50000x288 S800000x1 S800000x288 where
  offsetDims := [1]
  collapsedSliceDims := [0]
  operandBatchingDims := []
  startIndicesBatchingDims := []
  startIndexMap := [0]
  indexVectorDim := 1
  sliceSizes := ![1, 288]
  wf := gather_S50000x288_S800000x1_S800000x288_1_0_n_n_0_1_1288_wf
def scatter_S50000x288_S800000x1_S800000x288_1_0_0_1 : ScatterDims S50000x288 S800000x1 S800000x288 where
  updateWindowDims := [1]
  insertedWindowDims := [0]
  scatterDimsToOperandDims := [0]
  indexVectorDim := 1
  wf := scatter_S50000x288_S800000x1_S800000x288_1_0_0_1_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S3x256x96.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S2000x3.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S3x2000x96.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v5) S3x2000x96.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S3x2000x96.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v14) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4) S2000x3.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S96.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v32) S2000x96.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x256 : Shape := ⟨2, ![50000, 256]⟩
abbrev S800000 : Shape := ⟨1, ![800000]⟩
abbrev S3x50000 : Shape := ⟨2, ![3, 50000]⟩
abbrev S3x256x96 : Shape := ⟨3, ![3, 256, 96]⟩
abbrev S96 : Shape := ⟨1, ![96]⟩
abbrev S2x800000 : Shape := ⟨2, ![2, 800000]⟩
abbrev S1x800000 : Shape := ⟨2, ![1, 800000]⟩
abbrev S_ : Shape := ⟨0, ![]⟩
abbrev S50000 : Shape := ⟨1, ![50000]⟩
abbrev S800000x1 : Shape := ⟨2, ![800000, 1]⟩
abbrev S50000x96 : Shape := ⟨2, ![50000, 96]⟩
abbrev S1x50000 : Shape := ⟨2, ![1, 50000]⟩
abbrev S50000x1 : Shape := ⟨2, ![50000, 1]⟩
abbrev S1x256x96 : Shape := ⟨3, ![1, 256, 96]⟩
abbrev S256x96 : Shape := ⟨2, ![256, 96]⟩
abbrev S800000x96 : Shape := ⟨2, ![800000, 96]⟩
abbrev S1x96 : Shape := ⟨2, ![1, 96]⟩

abbrev nBuf : Space → Nat
  | .hbm => 147
  | .vmem => 0
  | .smem => 0
  | _ => 0

abbrev hbmTy0_0 (i : Nat) : BufTy := match i % 128 with
  | 0 => ⟨S50000x256, .f32⟩
  | 1 => ⟨S800000, .f32⟩
  | 2 => ⟨S3x50000, .f32⟩
  | 3 => ⟨S3x256x96, .f32⟩
  | 4 => ⟨S96, .f32⟩
  | 5 => ⟨S2x800000, .i32⟩
  | 6 => ⟨S1x800000, .i32⟩
  | 7 => ⟨S800000, .i32⟩
  | 8 => ⟨S1x800000, .i32⟩
  | 9 => ⟨S800000, .i32⟩
  | 10 => ⟨S_, .f32⟩
  | 11 => ⟨S800000, .f32⟩
  | 12 => ⟨S_, .f32⟩
  | 13 => ⟨S50000, .f32⟩
  | 14 => ⟨S800000x1, .i32⟩
  | 15 => ⟨S50000, .f32⟩
  | 16 => ⟨S_, .f32⟩
  | 17 => ⟨S50000, .f32⟩
  | 18 => ⟨S50000, .f32⟩
  | 19 => ⟨S_, .f32⟩
  | 20 => ⟨S50000, .f32⟩
  | 21 => ⟨S50000, .f32⟩
  | 22 => ⟨S_, .f32⟩
  | 23 => ⟨S50000x96, .f32⟩
  | 24 => ⟨S1x50000, .f32⟩
  | 25 => ⟨S50000, .f32⟩
  | 26 => ⟨S50000x1, .f32⟩
  | 27 => ⟨S1x256x96, .f32⟩
  | 28 => ⟨S256x96, .f32⟩
  | 29 => ⟨S50000x96, .f32⟩
  | 30 => ⟨S50000x96, .f32⟩
  | 31 => ⟨S50000x96, .f32⟩
  | 32 => ⟨S800000x1, .f32⟩
  | 33 => ⟨S_, .i32⟩
  | 34 => ⟨S800000, .i32⟩
  | 35 => ⟨S800000, .i1⟩
  | 36 => ⟨S_, .i32⟩
  | 37 => ⟨S800000, .i32⟩
  | 38 => ⟨S800000, .i32⟩
  | 39 => ⟨S800000, .i32⟩
  | 40 => ⟨S800000x1, .i32⟩
  | 41 => ⟨S800000x96, .f32⟩
  | 42 => ⟨S800000x96, .f32⟩
  | 43 => ⟨S800000x96, .f32⟩
  | 44 => ⟨S_, .f32⟩
  | 45 => ⟨S50000x96, .f32⟩
  | 46 => ⟨S800000x1, .i32⟩
  | 47 => ⟨S50000x96, .f32⟩
  | 48 => ⟨S50000x1, .f32⟩
  | 49 => ⟨S_, .f32⟩
  | 50 => ⟨S50000x1, .f32⟩
  | 51 => ⟨S50000x1, .f32⟩
  | 52 => ⟨S50000x96, .f32⟩
  | 53 => ⟨S50000x96, .f32⟩
  | 54 => ⟨S50000x96, .f32⟩
  | 55 => ⟨S1x50000, .f32⟩
  | 56 => ⟨S50000, .f32⟩
  | 57 => ⟨S50000x1, .f32⟩
  | 58 => ⟨S_, .f32⟩
  | 59 => ⟨S50000x96, .f32⟩
  | 60 => ⟨S50000x96, .f32⟩
  | 61 => ⟨S50000x96, .f32⟩
  | 62 => ⟨S50000x96, .f32⟩
  | 63 => ⟨S50000x96, .f32⟩
  | 64 => ⟨S1x50000, .f32⟩
  | 65 => ⟨S50000, .f32⟩
  | 66 => ⟨S50000x1, .f32⟩
  | 67 => ⟨S1x256x96, .f32⟩
  | 68 => ⟨S256x96, .f32⟩
  | 69 => ⟨S50000x96, .f32⟩
  | 70 => ⟨S50000x96, .f32⟩
  | 71 => ⟨S50000x96, .f32⟩
  | 72 => ⟨S800000x1, .f32⟩
  | 73 => ⟨S_, .i32⟩
  | 74 => ⟨S800000, .i32⟩
  | 75 => ⟨S800000, .i1⟩
  | 76 => ⟨S_, .i32⟩
  | 77 => ⟨S800000, .i32⟩
  | 78 => ⟨S800000, .i32⟩
  | 79 => ⟨S800000, .i32⟩
  | 80 => ⟨S800000x1, .i32⟩
  | 81 => ⟨S800000x96, .f32⟩
  | 82 => ⟨S800000x96, .f32⟩
  | 83 => ⟨S800000x96, .f32⟩
  | 84 => ⟨S_, .f32⟩
  | 85 => ⟨S50000x96, .f32⟩
  | 86 => ⟨S800000x1, .i32⟩
  | 87 => ⟨S50000x96, .f32⟩
  | 88 => ⟨S50000x1, .f32⟩
  | 89 => ⟨S_, .f32⟩
  | 90 => ⟨S50000x1, .f32⟩
  | 91 => ⟨S50000x1, .f32⟩
  | 92 => ⟨S50000x96, .f32⟩
  | 93 => ⟨S50000x96, .f32⟩
  | 94 => ⟨S50000x96, .f32⟩
  | 95 => ⟨S1x50000, .f32⟩
  | 96 => ⟨S50000, .f32⟩
  | 97 => ⟨S50000x1, .f32⟩
  | 98 => ⟨S_, .f32⟩
  | 99 => ⟨S50000x96, .f32⟩
  | 100 => ⟨S50000x96, .f32⟩
  | 101 => ⟨S50000x96, .f32⟩
  | 102 => ⟨S50000x96, .f32⟩
  | 103 => ⟨S50000x96, .f32⟩
  | 104 => ⟨S1x50000, .f32⟩
  | 105 => ⟨S50000, .f32⟩
  | 106 => ⟨S50000x1, .f32⟩
  | 107 => ⟨S1x256x96, .f32⟩
  | 108 => ⟨S256x96, .f32⟩
  | 109 => ⟨S50000x96, .f32⟩
  | 110 => ⟨S50000x96, .f32⟩
  | 111 => ⟨S50000x96, .f32⟩
  | 112 => ⟨S800000x1, .f32⟩
  | 113 => ⟨S_, .i32⟩
  | 114 => ⟨S800000, .i32⟩
  | 115 => ⟨S800000, .i1⟩
  | 116 => ⟨S_, .i32⟩
  | 117 => ⟨S800000, .i32⟩
  | 118 => ⟨S800000, .i32⟩
  | 119 => ⟨S800000, .i32⟩
  | 120 => ⟨S800000x1, .i32⟩
  | 121 => ⟨S800000x96, .f32⟩
  | 122 => ⟨S800000x96, .f32⟩
  | 123 => ⟨S800000x96, .f32⟩
  | 124 => ⟨S_, .f32⟩
  | 125 => ⟨S50000x96, .f32⟩
  | 126 => ⟨S800000x1, .i32⟩
  | 127 => ⟨S50000x96, .f32⟩
  | _ => ⟨S50000x256, .f32⟩

abbrev hbmTy0_1 (i : Nat) : BufTy := match i % 128 with
  | 0 => ⟨S50000x1, .f32⟩
  | 1 => ⟨S_, .f32⟩
  | 2 => ⟨S50000x1, .f32⟩
  | 3 => ⟨S50000x1, .f32⟩
  | 4 => ⟨S50000x96, .f32⟩
  | 5 => ⟨S50000x96, .f32⟩
  | 6 => ⟨S50000x96, .f32⟩
  | 7 => ⟨S1x50000, .f32⟩
  | 8 => ⟨S50000, .f32⟩
  | 9 => ⟨S50000x1, .f32⟩
  | 10 => ⟨S_, .f32⟩
  | 11 => ⟨S50000x96, .f32⟩
  | 12 => ⟨S50000x96, .f32⟩
  | 13 => ⟨S50000x96, .f32⟩
  | 14 => ⟨S50000x96, .f32⟩
  | 15 => ⟨S50000x96, .f32⟩
  | 16 => ⟨S1x96, .f32⟩
  | 17 => ⟨S50000x96, .f32⟩
  | 18 => ⟨S50000x96, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_cst_3 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c : Ref sig .tc := ⟨.hbm, 33, rfl⟩
abbrev main_v22 : Ref sig .tc := ⟨.hbm, 34, rfl⟩
abbrev main_v23 : Ref sig .tc := ⟨.hbm, 35, rfl⟩
abbrev main_c_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_5 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_6 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_call0_cst : Ref sig .tc := ⟨.hbm, 58, rfl⟩
abbrev main_call0_v0 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_c_7 : Ref sig .tc := ⟨.hbm, 73, rfl⟩
abbrev main_v56 : Ref sig .tc := ⟨.hbm, 74, rfl⟩
abbrev main_v57 : Ref sig .tc := ⟨.hbm, 75, rfl⟩
abbrev main_c_8 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_cst_9 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_cst_10 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_call1_cst : Ref sig .tc := ⟨.hbm, 98, rfl⟩
abbrev main_call1_v0 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_c_11 : Ref sig .tc := ⟨.hbm, 113, rfl⟩
abbrev main_v90 : Ref sig .tc := ⟨.hbm, 114, rfl⟩
abbrev main_v91 : Ref sig .tc := ⟨.hbm, 115, rfl⟩
abbrev main_c_12 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_cst_13 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_cst_14 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_call2_cst : Ref sig .tc := ⟨.hbm, 138, rfl⟩
abbrev main_call2_v0 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S_S50000x96 : S_.BroadcastsInDim S50000x96 (![] : Fin 0 → Fin S50000x96.rank)
  slices_S3x50000_S1x50000_0_0 : S3x50000.Slices ![0, 0] S1x50000
  shapeCasts_S1x50000_S50000 : S1x50000.ShapeCasts S50000
  bcast_S50000_S50000x1_0 : S50000.BroadcastsInDim S50000x1 (![0] : Fin 1 → Fin S50000x1.rank)
  slices_S3x256x96_S1x256x96_0_0_0 : S3x256x96.Slices ![0, 0, 0] S1x256x96
  shapeCasts_S1x256x96_S256x96 : S1x256x96.ShapeCasts S256x96
  bcast_S50000x1_S50000x96_0_1 : S50000x1.BroadcastsInDim S50000x96 (![0, 1] : Fin 2 → Fin S50000x96.rank)
  bcast_S800000x1_S800000x96_0_1 : S800000x1.BroadcastsInDim S800000x96 (![0, 1] : Fin 2 → Fin S800000x96.rank)
  bcast_S_S50000x1 : S_.BroadcastsInDim S50000x1 (![] : Fin 0 → Fin S50000x1.rank)
  slices_S3x50000_S1x50000_1_0 : S3x50000.Slices ![1, 0] S1x50000
  slices_S3x256x96_S1x256x96_1_0_0 : S3x256x96.Slices ![1, 0, 0] S1x256x96
  slices_S3x50000_S1x50000_2_0 : S3x50000.Slices ![2, 0] S1x50000
  slices_S3x256x96_S1x256x96_2_0_0 : S3x256x96.Slices ![2, 0, 0] S1x256x96
  bcast_S96_S1x96_1 : S96.BroadcastsInDim S1x96 (![1] : Fin 1 → Fin S1x96.rank)
  bcast_S1x96_S50000x96_0_1 : S1x96.BroadcastsInDim S50000x96 (![0, 1] : Fin 2 → Fin S50000x96.rank)
  scatter_S50000_S800000x1_S800000_n_0_0_1_wf : ScatterDims.WF S50000 S800000x1 S800000 [] [0] [0] 1
  dot_S50000x256_S256x96_S50000x96_1_0_0_1_n_n_wf : DotDims.WF S50000x256 S256x96 S50000x96 [1] [0] [0] [1] [] []
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x256_S256x96_S50000x96_1_0_0_1_n_n : DotDims S50000x256 S256x96 S50000x96 where
  lhsContracting := [1]
  rhsContracting := [0]
  lhsNonContracting := [0]
  rhsNonContracting := [1]
  lhsBatch := []
  rhsBatch := []
  wf := dot_S50000x256_S256x96_S50000x96_1_0_0_1_n_n_wf
def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf

class Facts : Prop extends Facts₀ where

variable [Facts]
-- ==== Proof.Spec.lean ====
/-
  The mathematics of the chained sparse spectral graph filter, as one function of the argument arrays.

  For node features `x : [N, 256]`, edge weights `adj : [E]`, per-filter node scales `ds : [3, N]`, filter weights
  `w : [3, 256, 96]`, a bias `b : [96]` and an edge list `ei : [2, E]` (row 0 the target node of an edge, row 1 its
  source node), with N = 50000 and E = 800000:

    feat f n o  = ds[f, n] · Σ_k x[n, k] · w[f, k, o]                      the scaled projection of filter f
    spmm f n o  = 0 + Σ_{e : target e = n} adj[e] · feat f (source e) o    the sparse product over the edge list
    deg n       = (0 + Σ_{e : target e = n} 1) + 1                         the degree with a self loop
    out n o     = (((0 + ds[0,n] · max (spmm 0 n o + (−1 · 0.1/deg n) · feat 0 n o) 0)
                      + ds[1,n] · max (spmm 1 n o + ( 1 · 0.1/deg n) · feat 1 n o) 0)
                      + ds[2,n] · max (spmm 2 n o + ( 1 · 0.1/deg n) · feat 2 n o) 0) + b[o]

  An edge's target is read off the edge list as a signed integer and an edge whose target is no node contributes
  nothing; its source is wrapped once when negative and then clamped into the node range. The degree vector and the
  two index columns are carried as the operations that compute them: both programs compute them the same way.
-/
import Idealize.ShloMosaic.PureOps.Ideal
import Idealize.ShloMosaic.Lib.ValueIdx

noncomputable section

namespace Cert.GraphFilter

open Idealize.ShloMosaic Idealize.ShloMosaic.ValueIdx

abbrev SN : Shape := ⟨1, ![50000]⟩
abbrev SE : Shape := ⟨1, ![800000]⟩
abbrev S0 : Shape := ⟨0, ![]⟩
abbrev S1E : Shape := ⟨2, ![1, 800000]⟩
abbrev S2E : Shape := ⟨2, ![2, 800000]⟩
abbrev SE1 : Shape := ⟨2, ![800000, 1]⟩

theorem slice_row0 : S2E.Slices ![0, 0] S1E := by decide
theorem slice_row1 : S2E.Slices ![1, 0] S1E := by decide
theorem cast_row : S1E.ShapeCasts SE := by decide
theorem bcast_col : SE.BroadcastsInDim SE1 (![0] : Fin 1 → Fin SE1.rank) := by decide
theorem bcast_E : S0.BroadcastsInDim SE (![] : Fin 0 → Fin SE.rank) := by decide
theorem bcast_N : S0.BroadcastsInDim SN (![] : Fin 0 → Fin SN.rank) := by decide

/-- The dimension numbers of the degree count: one scalar update per edge, added at the node its index names. -/
def degDims : ScatterDims SN SE1 SE where
  updateWindowDims := []
  insertedWindowDims := [0]
  scatterDimsToOperandDims := [0]
  indexVectorDim := 1

/-- Row 0 of the edge list: each edge's target node, as a word. -/
def targetWord (ei : IVec S2E 32) : IVec SE 32 := shapeCast SE (extractStridedSlice S1E ![0, 0] ei slice_row0) cast_row
/-- Row 1 of the edge list: each edge's source node, as a word. -/
def sourceWord (ei : IVec S2E 32) : IVec SE 32 := shapeCast SE (extractStridedSlice S1E ![1, 0] ei slice_row1) cast_row

/-- The targets as a column of scatter indices. -/
def targetIdx (ei : IVec S2E 32) : IVec SE1 32 := broadcastInDim SE1 ![0] bcast_col (targetWord ei)
/-- The sources as a column of gather indices: a negative word wrapped once by the node count. -/
def sourceIdx (ei : IVec S2E 32) : IVec SE1 32 :=
  broadcastInDim SE1 ![0] bcast_col
    (select (cmpi .slt (sourceWord ei) (broadcastInDim SE ![] bcast_E (constantI S0 32 0#32)))
      (addi (sourceWord ei) (broadcastInDim SE ![] bcast_E (constantI S0 32 50000#32))) (sourceWord ei))

/-- `0.1 / deg`, node by node: the degree counts the edges targeting the node, plus one. -/
def epsOverDeg (ei : IVec S2E 32) : FVec Ideal SN .f32 :=
  Host.divf (broadcastInDim SN ![] bcast_N (constant (F := Ideal) S0 .f32 0x3DCCCCCD#32))
    (addf (Host.scatterAdd degDims (broadcastInDim SN ![] bcast_N (constant (F := Ideal) S0 .f32 0x00000000#32)) (targetIdx ei)
        (broadcastInDim SE ![] bcast_E (constant (F := Ideal) S0 .f32 0x3F800000#32)))
      (broadcastInDim SN ![] bcast_N (constant (F := Ideal) S0 .f32 0x3F800000#32)))

/-- The node an edge's update lands on, as the scatter reads it: signed, not clamped. -/
def target (ei : IVec S2E 32) (e : Fin 800000) : Int := (targetIdx ei (ix2 e (0 : Fin 1))).toInt
/-- The node an edge's gather reads: signed, clamped into the node range. -/
def source (ei : IVec S2E 32) (e : Fin 800000) : Fin 50000 :=
  ⟨min (sourceIdx ei (ix2 e (0 : Fin 1))).toInt.toNat (50000 - 1), by omega⟩

variable (x : (⟨2, ![50000, 256]⟩ : Shape).Idx → EReal) (adj : SE.Idx → EReal) (ds : (⟨2, ![3, 50000]⟩ : Shape).Idx → EReal)
  (w : (⟨3, ![3, 256, 96]⟩ : Shape).Idx → EReal) (b : (⟨1, ![96]⟩ : Shape).Idx → EReal) (ei : IVec S2E 32)

/-- Filter `f`'s scaled projection of node `n`, output feature `o`. -/
def feat (f : Fin 3) (n : Fin 50000) (o : Fin 96) : EReal :=
  ds (ix2 f n) * ∑ k : Fin 256, x (ix2 n k) * w (ix3 f k o)

/-- The sparse product of the weighted adjacency with filter `f`'s features, from zero. -/
def spmm (f : Fin 3) (n : Fin 50000) (o : Fin 96) : EReal :=
  Ideal.ofBits .f32 0x00000000#32
    + ∑ e ∈ Finset.univ.filter (fun e : Fin 800000 => target ei e = (n.val : Int)), adj (ix1 e) * feat x ds w f (source ei e) o

/-- One filter's contribution: the node scale times the rectified sum of the sparse product and the signed
    `0.1/deg` multiple of the features. -/
def term (sgn : BitVec 32) (f : Fin 3) (n : Fin 50000) (o : Fin 96) : EReal :=
  ds (ix2 f n) * max (spmm x adj ds w ei f n o + (Ideal.ofBits .f32 sgn * epsOverDeg ei (ix1 n)) * feat x ds w f n o)
    (Ideal.ofBits .f32 0x00000000#32)

/-- The layer's output. -/
def out : (⟨2, ![50000, 96]⟩ : Shape).Idx → EReal := fun i =>
  (((Ideal.ofBits .f32 0x00000000#32 + term x adj ds w ei 0xBF800000#32 0 (i 0) (i 1))
      + term x adj ds w ei 0x3F800000#32 1 (i 0) (i 1))
    + term x adj ds w ei 0x3F800000#32 2 (i 0) (i 1)) + b (ix1 (i 1))

end Cert.GraphFilter

end
-- ==== Proof.LibPlainProduct.lean ====
/-
  A plain matrix product read at an index, over any extents.

  For `x : [M, K]` and `y : [K, N]` and a dimension record between `[M, K]`, `[K, N]` and `[M, N]` that contracts the
  left operand's second axis with the right operand's first one, the sum over the contraction index in which a
  `tpu.matmul` into the zero accumulator and a host `dot_general` are both read at the ideal values is, at output index
  `(i, j)`, the textbook `Σ_d x[i, d] · y[d, j]`. It is stated for any record whose operand indices have, axis by axis,
  the coordinates a plain product has (four equations, each closed by `rfl` at a literal record), so one statement
  serves records of different extents.
-/
import Idealize.ShloMosaic.PureOps.Ideal.Laws
import Idealize.ShloMosaic.Lib.ValueIdx

noncomputable section

namespace Idealize.ShloMosaic.PlainProduct

open Idealize.ShloMosaic Idealize.ShloMosaic.ValueIdx

/-- **The contraction sum of a plain product, re-indexed by its one coordinate.** `D` is any dimension record between
    `[M, K]`, `[K, N]` and `[M, N]` with one contracted axis of extent `K` whose left operand index at output index `j`
    and contraction index `k` is `(j 0, k)` and whose right one is `(k, j 1)`. -/
theorem sum_contr {M K N : Nat}
    (D : DotDims ⟨2, ![M, K]⟩ ⟨2, ![K, N]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (x : (⟨2, ![M, K]⟩ : Shape).Idx → EReal) (y : (⟨2, ![K, N]⟩ : Shape).Idx → EReal)
    (i : Fin M) (j : Fin N) :
    ∑ k : D.contr.Idx, x (D.lhsIdx (ix2 i j) k) * y (D.rhsIdx (ix2 i j) k)
      = ∑ d : Fin K, x (ix2 i d) * y (ix2 d j) := by
  rw [← Equiv.sum_comp (contrEquiv1 D K hr hs).symm]
  refine Finset.sum_congr rfl fun d _ => ?_
  have el : D.lhsIdx (ix2 i j) ((contrEquiv1 D K hr hs).symm d) = ix2 i d := by
    funext a
    refine Fin.ext ?_
    match a with
    | ⟨0, _⟩ => exact hl0 _ _
    | ⟨1, _⟩ => exact (hl1 _ _).trans (contrEquiv1_symm_val D K hr hs d)
  have er : D.rhsIdx (ix2 i j) ((contrEquiv1 D K hr hs).symm d) = ix2 d j := by
    funext a
    refine Fin.ext ?_
    match a with
    | ⟨0, _⟩ => exact (hr0 _ _).trans (contrEquiv1_symm_val D K hr hs d)
    | ⟨1, _⟩ => exact hr1 _ _
  rw [el, er]

/-- A `tpu.matmul` into the zero accumulator, at the ideal values, read at `(i, j)`. -/
theorem matmul_zero_apply {M K N : Nat} {φ₁ φ₂ : FTy}
    (D : DotDims ⟨2, ![M, K]⟩ ⟨2, ![K, N]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (prec : Option ContractPrecision)
    (x : FVec Ideal ⟨2, ![M, K]⟩ φ₁) (y : FVec Ideal ⟨2, ![K, N]⟩ φ₂) (i : Fin M) (j : Fin N) :
    matmul D prec x y (constant (F := Ideal) ⟨2, ![M, N]⟩ .f32 0x00000000#32) (ix2 i j)
      = ∑ d : Fin K, x (ix2 i d) * y (ix2 d j) :=
  (Ideal.matmul_constant_zero_apply D prec x y (ix2 i j)).trans (sum_contr D hr hs hl0 hl1 hr0 hr1 x y i j)

/-- A host `dot_general`, at the ideal values, read at `(i, j)`. -/
theorem dotGeneral_apply {M K N : Nat} {φ₁ φ₂ : FTy}
    (D : DotDims ⟨2, ![M, K]⟩ ⟨2, ![K, N]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (prec : Option ContractPrecision)
    (x : FVec Ideal ⟨2, ![M, K]⟩ φ₁) (y : FVec Ideal ⟨2, ![K, N]⟩ φ₂) (i : Fin M) (j : Fin N) :
    Host.dotGeneral D prec x y (ix2 i j) = ∑ d : Fin K, x (ix2 i d) * y (ix2 d j) := by
  simp only [Host.dotGeneral]
  exact (Ideal.dotGeneral_apply D prec _ x y (ix2 i j)).trans (sum_contr D hr hs hl0 hl1 hr0 hr1 x y i j)

end Idealize.ShloMosaic.PlainProduct

end
-- ==== Proof.ProjValue.lean ====
/-
  What the first kernel region leaves in its output array: the scaled projections of all three filters.

  The region walks the 25 row tiles of 2000 nodes. At tile `t` its body multiplies the tile of `x` by each filter's
  weight matrix (a product into the zero accumulator, so at the ideal values the plain sum over the 256 input
  features) and scales row `r` of the product by the node's scale for that filter. Block `t` of the output covers rows
  `2000·t … 2000·t + 1999` of every filter, and the 25 blocks tile the array, so the array ends holding
  `(Σ_k x[n, k] · w[f, k, o]) · dsT[n, f]` at `(f, n, o)`.

  The steps: each of the body's three stored slabs read at an index (the product is the plain sum, the scale column is
  the node's scale for the slab's filter); the three slabs tile the output tile, so the tile is one function `tileProj`
  of the three input tiles; each input tile is its array read at the rows the output tile covers, so the tile written
  back at point `t` is tile `t` of `proj`; the tiles cover the array.
-/
import proofs.«180509_j31851477467635_1_alg».proof.Proof.Gen.KernelIdeal.Frame
import proofs.«180509_j31851477467635_1_alg».proof.Proof.LibPlainProduct
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.ProjValue

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- The projected and scaled features, filter by filter: `(Σ_k x[n, k] · w[f, k, o]) · dsT[n, f]` at `(f, n, o)`. -/
def proj (x : S50000x256.Idx → EReal) (w : S3x256x96.Idx → EReal) (dsT : S50000x3.Idx → EReal) : S3x50000x96.Idx → EReal :=
  fun i => (∑ k : Fin 256, x (ix2 (i 1) k) * w (ix3 (i 0) k (i 2))) * dsT (ix2 (i 1) (i 0))

/-- A column of per-row scales spread over the 96 lanes: at (r, o) it is the scale of row r for the filter the column
    was cut at. -/
theorem scaleCol_apply (x2 : FVec Ideal S2000x3 .f32) (q : ℕ) (hs : S2000x3.Slices ![0, q] S2000x1)
    (h3 : S2000x3.ShapeCasts S2000x3) (h1 : S2000x1.ShapeCasts S2000) (h2 : S2000.ShapeCasts S2000x1)
    (hb : S2000x1.Broadcasts S2000x96) (f : Fin 3) (hf : f.val = q) (r : Fin 2000) (o : Fin 96) :
    broadcastTo S2000x96 (shapeCast S2000x1 (shapeCast S2000 (extractStridedSlice S2000x1 ![0, q] (shapeCast S2000x3 x2 h3) hs) h1) h2) hb (ix2 r o)
      = x2 (ix2 r f) := by
  refine (broadcastTo_apply _ hb (ix2 r o) (ix2 r (0 : Fin 1)) fun ax => ?_).trans ?_
  · match ax with
    | ⟨0, _⟩ => rfl
    | ⟨1, _⟩ => rfl
  rw [shapeCast_shapeCast]
  refine (slice2_axis1_apply q _ hs r (0 : Fin 1) f (by simp [hf])).trans ?_
  rw [shapeCast_self]

/-- The tile of `x` times one filter's weight matrix, into the zero accumulator: the plain sum over the 256 input
    features. -/
theorem prod_apply (x0 : Vec Ideal S2000x256 .f32) (v : Vec Ideal S1x256x96 .f32) (r : Fin 2000) (o : Fin 96) :
    matmul dot_S2000x256_S256x96_S2000x96_1_0_0_1_n_n none (truncf FTy.bf16 x0 bitsLt_bf16_f32)
        (truncf FTy.bf16 (shapeCast S256x96 v shapeCasts_S1x256x96_S256x96) bitsLt_bf16_f32)
        (constant (F := Ideal) S2000x96 FTy.f32 0x00000000#32) (ix2 r o)
      = ∑ k : Fin 256, x0 (ix2 r k) * v (ix3 (0 : Fin 1) k o) := by
  refine (Idealize.ShloMosaic.PlainProduct.matmul_zero_apply dot_S2000x256_S256x96_S2000x96_1_0_0_1_n_n rfl rfl
    (fun _ _ => rfl) (fun _ _ => rfl) (fun _ _ => rfl) (fun _ _ => rfl) none _ _ r o).trans ?_
  refine Finset.sum_congr rfl fun k _ => ?_
  exact congrArg (x0 (ix2 r k) * ·) (shapeCast_1ab_ab_apply v shapeCasts_S1x256x96_S256x96 k o)

/-- The product scaled lane by lane and stored as a [1, 2000, 96] slab. -/
theorem prodScale_apply (x0 : Vec Ideal S2000x256 .f32) (v : Vec Ideal S1x256x96 .f32) (sc : FVec Ideal S2000x96 .f32)
    (u : Fin 1) (r : Fin 2000) (o : Fin 96) :
    shapeCast S1x2000x96
        (mulf (matmul dot_S2000x256_S256x96_S2000x96_1_0_0_1_n_n none (truncf FTy.bf16 x0 bitsLt_bf16_f32)
          (truncf FTy.bf16 (shapeCast S256x96 v shapeCasts_S1x256x96_S256x96) bitsLt_bf16_f32)
          (constant (F := Ideal) S2000x96 FTy.f32 0x00000000#32)) sc)
        shapeCasts_S2000x96_S1x2000x96 (ix3 u r o)
      = (∑ k : Fin 256, x0 (ix2 r k) * v (ix3 (0 : Fin 1) k o)) * sc (ix2 r o) := by
  refine (shapeCast_ab_1ab_apply _ shapeCasts_S2000x96_S1x2000x96 u r o).trans ?_
  exact congrArg (· * sc (ix2 r o)) (prod_apply x0 v r o)

/-- Filter 0's slab of the body's result. -/
theorem pay4_apply (x0 : Vec Ideal S2000x256 .f32) (x2 : Vec Ideal S2000x3 .f32) (v : Vec Ideal S1x256x96 .f32)
    (u : Fin 1) (r : Fin 2000) (o : Fin 96) :
    k0_pay4 x0 x2 v (ix3 u r o) = (∑ k : Fin 256, x0 (ix2 r k) * v (ix3 (0 : Fin 1) k o)) * x2 (ix2 r (0 : Fin 3)) := by
  unfold k0_pay4 k0_pay2 k0_pay3
  dsimp only
  refine (prodScale_apply x0 v _ u r o).trans ?_
  exact congrArg ((∑ k : Fin 256, x0 (ix2 r k) * v (ix3 (0 : Fin 1) k o)) * ·)
    (scaleCol_apply x2 0 slices_S2000x3_o0_0_S2000x1 shapeCasts_S2000x3_S2000x3 shapeCasts_S2000x1_S2000
      shapeCasts_S2000_S2000x1 broadcasts_S2000x1_S2000x96 (0 : Fin 3) rfl r o)

/-- Filter 1's slab. -/
theorem pay5_apply (x0 : Vec Ideal S2000x256 .f32) (x2 : Vec Ideal S2000x3 .f32) (v : Vec Ideal S1x256x96 .f32)
    (u : Fin 1) (r : Fin 2000) (o : Fin 96) :
    k0_pay5 x0 x2 v (ix3 u r o) = (∑ k : Fin 256, x0 (ix2 r k) * v (ix3 (0 : Fin 1) k o)) * x2 (ix2 r (1 : Fin 3)) := by
  unfold k0_pay5 k0_pay2 k0_pay3
  dsimp only
  refine (prodScale_apply x0 v _ u r o).trans ?_
  exact congrArg ((∑ k : Fin 256, x0 (ix2 r k) * v (ix3 (0 : Fin 1) k o)) * ·)
    (scaleCol_apply x2 1 slices_S2000x3_o0_1_S2000x1 shapeCasts_S2000x3_S2000x3 shapeCasts_S2000x1_S2000
      shapeCasts_S2000_S2000x1 broadcasts_S2000x1_S2000x96 (1 : Fin 3) rfl r o)

/-- Filter 2's slab: its product and its scale column are carried out of the body's first part. -/
theorem pay1_apply (x0 : Vec Ideal S2000x256 .f32) (x2 : Vec Ideal S2000x3 .f32) (v : Vec Ideal S1x256x96 .f32)
    (u : Fin 1) (r : Fin 2000) (o : Fin 96) :
    k0_pay1 (k0_pay6 x0 v) (k0_pay7 x2) (ix3 u r o)
      = (∑ k : Fin 256, x0 (ix2 r k) * v (ix3 (0 : Fin 1) k o)) * x2 (ix2 r (2 : Fin 3)) := by
  unfold k0_pay1 k0_pay6 k0_pay7 k0_pay2 k0_pay3
  dsimp only
  refine (prodScale_apply x0 v _ u r o).trans ?_
  exact congrArg ((∑ k : Fin 256, x0 (ix2 r k) * v (ix3 (0 : Fin 1) k o)) * ·)
    (scaleCol_apply x2 2 slices_S2000x3_o0_2_S2000x1 shapeCasts_S2000x3_S2000x3 shapeCasts_S2000x1_S2000
      shapeCasts_S2000_S2000x1 broadcasts_S2000x1_S2000x96 (2 : Fin 3) rfl r o)

/-! ## One tile's result as a function of the three tiles it reads -/

/-- What the body leaves in the output tile, index by index: at `(f, r, o)` the product of row `r` of the `x` tile
    with column `o` of filter `f`'s weight matrix, scaled by row `r`'s scale for filter `f`. -/
def tileProj (x0 : Vec Ideal S2000x256 .f32) (x1 : Vec Ideal S3x256x96 .f32) (x2 : Vec Ideal S2000x3 .f32) :
    S3x2000x96.Idx → EReal :=
  fun y => (∑ k : Fin 256, x0 (ix2 (y 1) k) * x1 (ix3 (y 0) k (y 2))) * x2 (ix2 (y 1) (y 0))

theorem zero_offsets2 : (![0, 0] : Fin 2 → Nat) = fun _ => 0 := funext fun a => by fin_cases a <;> rfl

/-- Filter `f`'s slab of the output tile sits at `(f, r, o)`. -/
theorem slab_emb (q : ℕ) (inb : ∀ a, (![q, 0, 0] : Fin 3 → ℕ) a + S1x2000x96.size a ≤ S3x2000x96.size a)
    (f : Fin 3) (hf : f.val = q) (u : Fin 1) (r : Fin 2000) (o : Fin 96) :
    (Rect.unit (s := S3x2000x96) ![q, 0, 0] S1x2000x96.size inb).emb (ix3 u r o) = ix3 f r o := by
  funext a
  refine Fin.ext ?_
  match a with
  | ⟨0, _⟩ => show q + 1 * u.val = f.val; omega
  | ⟨1, _⟩ => show 0 + 1 * r.val = r.val; omega
  | ⟨2, _⟩ => show 0 + 1 * o.val = o.val; omega

/-- Filter `f`'s weight matrix, loaded as a [1, 256, 96] slab of the weights. -/
theorem wslab_ld (x1 : Vec Ideal S3x256x96 .f32) (q : ℕ)
    (inb : ∀ a, (![q, 0, 0] : Fin 3 → ℕ) a + S1x256x96.size a ≤ S3x256x96.size a)
    (f : Fin 3) (hf : f.val = q) (u : Fin 1) (k : Fin 256) (o : Fin 96) :
    View.ld x1 (Rect.unit (s := S3x256x96) ![q, 0, 0] S1x256x96.size inb) (ix3 u k o) = x1 (ix3 f k o) := by
  show x1 _ = x1 _
  refine congrArg x1 (funext fun a => Fin.ext ?_)
  match a with
  | ⟨0, _⟩ => show q + 1 * u.val = f.val; omega
  | ⟨1, _⟩ => show 0 + 1 * k.val = k.val; omega
  | ⟨2, _⟩ => show 0 + 1 * o.val = o.val; omega

/-- One slab of the output tile is `tileProj` there, given the slab's payload at an index. -/
theorem slab_eq (x0 : Vec Ideal S2000x256 .f32) (x1 : Vec Ideal S3x256x96 .f32) (x2 : Vec Ideal S2000x3 .f32)
    (q : ℕ) (inbO : ∀ a, (![q, 0, 0] : Fin 3 → ℕ) a + S1x2000x96.size a ≤ S3x2000x96.size a)
    (inbW : ∀ a, (![q, 0, 0] : Fin 3 → ℕ) a + S1x256x96.size a ≤ S3x256x96.size a)
    (f : Fin 3) (hf : f.val = q) (pay : Vec Ideal S1x2000x96 .f32)
    (hpay : ∀ (u : Fin 1) (r : Fin 2000) (o : Fin 96), pay (ix3 u r o)
      = (∑ k : Fin 256, x0 (ix2 r k) * View.ld x1 (Rect.unit (s := S3x256x96) ![q, 0, 0] S1x256x96.size inbW) (ix3 (0 : Fin 1) k o)) * x2 (ix2 r f))
    (x : S1x2000x96.Idx) :
    pay x = tileProj x0 x1 x2 ((Rect.unit (s := S3x2000x96) ![q, 0, 0] S1x2000x96.size inbO).emb x) := by
  obtain ⟨u, r, o, rfl⟩ : ∃ (u : Fin 1) (r : Fin 2000) (o : Fin 96), x = ix3 u r o := ⟨x 0, x 1, x 2, eq_ix3 x⟩
  rw [slab_emb q inbO f hf u r o, hpay u r o]
  show _ = (∑ k : Fin 256, x0 (ix2 r k) * x1 (ix3 f k o)) * x2 (ix2 r f)
  refine congrArg (· * x2 (ix2 r f)) (Finset.sum_congr rfl fun k _ => ?_)
  rw [wslab_ld x1 q inbW f hf (0 : Fin 1) k o]

/-- The output tile after the body is `tileProj` of the three input tiles: its three stores are the three filters'
    slabs, which tile it. -/
theorem out_eq (x0 : Vec Ideal S2000x256 .f32) (x1 : Vec Ideal S3x256x96 .f32) (x2 : Vec Ideal S2000x3 .f32) :
    out0_3 (F := Ideal) x0 x1 x2 = tileProj x0 x1 x2 := by
  funext y
  unfold out0_3
  simp only [View.ld_unit_zero (S := S2000x256) zero_offsets2, View.ld_unit_zero (S := S2000x3) zero_offsets2]
  refine View.canon_apply_of_pieces (Val := Elt Ideal) (S := S3x2000x96) (e := .f32) (tileProj x0 x1 x2) _ ?_ y (cover0_3 _ _ _ y)
  intro p hp
  simp only [List.mem_cons, List.not_mem_nil, or_false] at hp
  rcases hp with rfl | rfl | rfl
  · exact slab_eq x0 x1 x2 2 inb_S3x2000x96_S1x2000x96_2_0_0 inb_S3x256x96_S1x256x96_2_0_0 (2 : Fin 3) rfl _ (fun u r o => pay1_apply x0 x2 _ u r o)
  · exact slab_eq x0 x1 x2 1 inb_S3x2000x96_S1x2000x96_1_0_0 inb_S3x256x96_S1x256x96_1_0_0 (1 : Fin 3) rfl _ (fun u r o => pay5_apply x0 x2 _ u r o)
  · exact slab_eq x0 x1 x2 0 inb_S3x2000x96_S1x2000x96_0_0_0 inb_S3x256x96_S1x256x96_0_0_0 (0 : Fin 3) rfl _ (fun u r o => pay4_apply x0 x2 _ u r o)

/-! ## From the tiles to the array -/

/-- The three arrays the region reads, as it finds them, and their tiles at grid point `t`. -/
abbrev xArr (c : Dev nD) : S50000x256.Idx → EReal := V c main_arg0
abbrev wArr (c : Dev nD) : S3x256x96.Idx → EReal := V c main_arg3
abbrev dArr (c : Dev nD) : S50000x3.Idx → EReal := V c main_v4
abbrev xBlk (c : Dev nD) (t : Fin cfg0.N) : Vec Ideal S2000x256 .f32 := iblk0 (F := Ideal) V c 0 t
abbrev wBlk (c : Dev nD) (t : Fin cfg0.N) : Vec Ideal S3x256x96 .f32 := iblk0 (F := Ideal) V c 1 t
abbrev dBlk (c : Dev nD) (t : Fin cfg0.N) : Vec Ideal S2000x3 .f32 := iblk0 (F := Ideal) V c 2 t

/-- The printed index maps, decided once over the grid: at point `t` the tiles of `x`, of the scales and of the output
    are row tile `t`, and the weights are read whole. -/
theorem tile_indices : ∀ t : Fin cfg0.N,
    win0_0.index t (0 : Fin 2) = t.val ∧ win0_0.index t (1 : Fin 2) = 0
    ∧ win0_1.index t (0 : Fin 3) = 0 ∧ win0_1.index t (1 : Fin 3) = 0 ∧ win0_1.index t (2 : Fin 3) = 0
    ∧ win0_2.index t (0 : Fin 2) = t.val ∧ win0_2.index t (1 : Fin 2) = 0
    ∧ win0_3.index t (0 : Fin 3) = 0 ∧ win0_3.index t (1 : Fin 3) = t.val ∧ win0_3.index t (2 : Fin 3) = 0 :=
  (by decide +kernel : ∀ t : Fin grid0.N, _)

/-- The `x` tile at point `t` is rows `2000·t … 2000·t + 1999` of `x`. -/
theorem xBlk_apply (c : Dev nD) (t : Fin cfg0.N) (r : Fin 2000) (k : Fin 256) (n : Fin 50000)
    (hn : n.val = t.val * 2000 + r.val) : xBlk V c t (ix2 r k) = xArr V c (ix2 n k) := by
  obtain ⟨e0, e1, -⟩ := tile_indices t
  have h : ((cfg0.win 0).blk t).view.emb (ix2 r k) = ix2 n k := by
    funext a
    refine Fin.ext ?_
    match a with
    | ⟨0, _⟩ => show win0_0.index t (0 : Fin 2) * 2000 + 1 * r.val = n.val; omega
    | ⟨1, _⟩ => show win0_0.index t (1 : Fin 2) * 256 + 1 * k.val = k.val; omega
  show V c main_arg0 (((cfg0.win 0).blk t).view.emb (ix2 r k)) = V c main_arg0 (ix2 n k)
  rw [h]

/-- The weights' tile is the whole array at every point. -/
theorem wBlk_apply (c : Dev nD) (t : Fin cfg0.N) (f : Fin 3) (k : Fin 256) (o : Fin 96) :
    wBlk V c t (ix3 f k o) = wArr V c (ix3 f k o) := by
  obtain ⟨-, -, e0, e1, e2, -⟩ := tile_indices t
  have h : ((cfg0.win 1).blk t).view.emb (ix3 f k o) = ix3 f k o := by
    funext a
    refine Fin.ext ?_
    match a with
    | ⟨0, _⟩ => show win0_1.index t (0 : Fin 3) * 3 + 1 * f.val = f.val; omega
    | ⟨1, _⟩ => show win0_1.index t (1 : Fin 3) * 256 + 1 * k.val = k.val; omega
    | ⟨2, _⟩ => show win0_1.index t (2 : Fin 3) * 96 + 1 * o.val = o.val; omega
  show V c main_arg3 (((cfg0.win 1).blk t).view.emb (ix3 f k o)) = V c main_arg3 (ix3 f k o)
  rw [h]

/-- The scales' tile at point `t` is rows `2000·t … 2000·t + 1999` of the scales. -/
theorem dBlk_apply (c : Dev nD) (t : Fin cfg0.N) (r : Fin 2000) (f : Fin 3) (n : Fin 50000)
    (hn : n.val = t.val * 2000 + r.val) : dBlk V c t (ix2 r f) = dArr V c (ix2 n f) := by
  obtain ⟨-, -, -, -, -, e0, e1, -⟩ := tile_indices t
  have h : ((cfg0.win 2).blk t).view.emb (ix2 r f) = ix2 n f := by
    funext a
    refine Fin.ext ?_
    match a with
    | ⟨0, _⟩ => show win0_2.index t (0 : Fin 2) * 2000 + 1 * r.val = n.val; omega
    | ⟨1, _⟩ => show win0_2.index t (1 : Fin 2) * 3 + 1 * f.val = f.val; omega
  show V c main_v4 (((cfg0.win 2).blk t).view.emb (ix2 r f)) = V c main_v4 (ix2 n f)
  rw [h]

/-- The output tile at point `t` sits at rows `2000·t … 2000·t + 1999` of every filter. -/
theorem oBlk_emb (t : Fin cfg0.N) (f : Fin 3) (r : Fin 2000) (o : Fin 96) (n : Fin 50000)
    (hn : n.val = t.val * 2000 + r.val) : ((cfg0.win 3).blk t).view.emb (ix3 f r o) = ix3 f n o := by
  obtain ⟨-, -, -, -, -, -, -, e0, e1, e2⟩ := tile_indices t
  funext a
  refine Fin.ext ?_
  match a with
  | ⟨0, _⟩ => show win0_3.index t (0 : Fin 3) * 3 + 1 * f.val = f.val; omega
  | ⟨1, _⟩ => show win0_3.index t (1 : Fin 3) * 2000 + 1 * r.val = n.val; omega
  | ⟨2, _⟩ => show win0_3.index t (2 : Fin 3) * 96 + 1 * o.val = o.val; omega

/-- A tile's result is the projection of the arrays, read where the tile sits: the sum runs over the same row of `x`
    and the same filter's weights, and the scale is the same node's. -/
theorem tileProj_eq_proj (X : S50000x256.Idx → EReal) (W : S3x256x96.Idx → EReal) (D : S50000x3.Idx → EReal)
    (x0 : Vec Ideal S2000x256 .f32) (x1 : Vec Ideal S3x256x96 .f32) (x2 : Vec Ideal S2000x3 .f32)
    (f : Fin 3) (r : Fin 2000) (o : Fin 96) (n : Fin 50000)
    (hx : ∀ k : Fin 256, x0 (ix2 r k) = X (ix2 n k)) (hw : ∀ k : Fin 256, x1 (ix3 f k o) = W (ix3 f k o))
    (hd : x2 (ix2 r f) = D (ix2 n f)) :
    tileProj x0 x1 x2 (ix3 f r o) = proj X W D (ix3 f n o) := by
  show (∑ k : Fin 256, x0 (ix2 r k) * x1 (ix3 f k o)) * x2 (ix2 r f) = (∑ k : Fin 256, X (ix2 n k) * W (ix3 f k o)) * D (ix2 n f)
  rw [hd]
  refine congrArg (· * D (ix2 n f)) (Finset.sum_congr rfl fun k _ => ?_)
  rw [hx k, hw k]

/-- WHAT POINT `t` WRITES BACK is tile `t` of the projection of the arrays the region was entered with. -/
theorem flushed_eq (c : Dev nD) (t : Fin cfg0.N) :
    (dat0 (F := Ideal) V c).flushed 3 t
      = ((cfg0.win 3).blk t).view.read (Elt Ideal) (proj (V c main_arg0) (V c main_arg3) (V c main_v4)) := by
  show (cfg0.win 3).cut (grid0.coords t) ((dat0 (F := Ideal) V c).after 3 t) = _
  rw [after0_3]
  refine funext fun (j : S3x2000x96.Idx) => ?_
  obtain ⟨f, r, o, rfl⟩ : ∃ (f : Fin 3) (r : Fin 2000) (o : Fin 96), j = ix3 f r o := ⟨j 0, j 1, j 2, eq_ix3 j⟩
  have ht : t.val < 25 := t.isLt
  have hn : ((⟨t.val * 2000 + r.val, by omega⟩ : Fin 50000)).val = t.val * 2000 + r.val := rfl
  show out0_3 (F := Ideal) (xBlk V c t) (wBlk V c t) (dBlk V c t) (ix3 f r o)
    = proj (xArr V c) (wArr V c) (dArr V c) (((cfg0.win 3).blk t).view.emb (ix3 f r o))
  rw [oBlk_emb t f r o _ hn]
  refine (congrFun (out_eq (xBlk V c t) (wBlk V c t) (dBlk V c t)) (ix3 f r o)).trans ?_
  exact tileProj_eq_proj (xArr V c) (wArr V c) (dArr V c) (xBlk V c t) (wBlk V c t) (dBlk V c t) f r o _
    (fun k => xBlk_apply V c t r k _ hn) (fun k => wBlk_apply V c t f k o) (dBlk_apply V c t r f _ hn)

/-- An index of the output array is in point `t`'s tile iff each coordinate is in the tile's range on its axis. -/
theorem mem_blk (t : Fin cfg0.N) (i : S3x50000x96.Idx) :
    i ∈ ((cfg0.win 3).blk t).view.set ↔ ∀ a : Fin 3, win0_3.index t a * S3x2000x96.size a ≤ (i a).val ∧ (i a).val < win0_3.index t a * S3x2000x96.size a + S3x2000x96.size a := by
  show i ∈ ((View.whole main_v5).slice (win0_3.rect t)).set ↔ _
  rw [View.set_slice_whole, Rect.mem_set_unit]
  exact Iff.rfl

/-- The 25 tiles cover the output array: node `n` is in row tile `n / 2000`, which is written back. -/
theorem cover (i : S3x50000x96.Idx) :
    ∃ t : Fin cfg0.N, (cfg0.win 3).flush t = true ∧ i ∈ ((cfg0.win 3).blk t).view.set := by
  have h0 : (i 0).val < 3 := (i 0).isLt
  have h1 : (i 1).val < 50000 := (i 1).isLt
  have h2 : (i 2).val < 96 := (i 2).isLt
  have hq : (i 1).val / 2000 < 25 := by omega
  obtain ⟨-, -, -, -, -, -, -, e0, e1, e2⟩ := tile_indices ⟨(i 1).val / 2000, hq⟩
  have e1' : win0_3.index (⟨(i 1).val / 2000, hq⟩ : Fin cfg0.N) (1 : Fin 3) = (i 1).val / 2000 := e1
  refine ⟨⟨(i 1).val / 2000, hq⟩, flush0_3 _, ?_⟩
  rw [mem_blk]
  intro a
  match a with
  | ⟨0, _⟩ => show win0_3.index (⟨(i 1).val / 2000, hq⟩ : Fin cfg0.N) (0 : Fin 3) * 3 ≤ (i 0).val ∧ (i 0).val < win0_3.index (⟨(i 1).val / 2000, hq⟩ : Fin cfg0.N) (0 : Fin 3) * 3 + 3; omega
  | ⟨1, _⟩ => show win0_3.index (⟨(i 1).val / 2000, hq⟩ : Fin cfg0.N) (1 : Fin 3) * 2000 ≤ (i 1).val ∧ (i 1).val < win0_3.index (⟨(i 1).val / 2000, hq⟩ : Fin cfg0.N) (1 : Fin 3) * 2000 + 2000; omega
  | ⟨2, _⟩ => show win0_3.index (⟨(i 1).val / 2000, hq⟩ : Fin cfg0.N) (2 : Fin 3) * 96 ≤ (i 2).val ∧ (i 2).val < win0_3.index (⟨(i 1).val / 2000, hq⟩ : Fin cfg0.N) (2 : Fin 3) * 96 + 96; omega

/-- After the region its output array holds the projection of the arrays it was entered with. -/
theorem final (c : Dev nD) :
    (dat0 (F := Ideal) V c).arrAt 3 cfg0.N = proj (V c main_arg0) (V c main_arg3) (V c main_v4) :=
  (dat0 (F := Ideal) V c).arrAt_eq_of_cover 3 (proj (V c main_arg0) (V c main_arg3) (V c main_v4))
    (fun t _ => flushed_eq V c t) cover

end Cert.KernelIdeal.ProjValue

end
-- ==== Proof.CombineValue.lean ====
/-
  What the second kernel region leaves in its output array: the three filters combined.

  The region walks the 25 row tiles of 2000 nodes. At tile `t` its body takes, for each filter `f`, the tile of the
  projected features `t[f]` and of the sparse product `s[f]`, forms `s + (σ_f · eps) · t` with `σ_0 = −1`, `σ_1 = σ_2 = 1`
  and `eps` the node's column entry, rectifies it, scales it by the node's scale for that filter and adds the three
  contributions in order from zero; then it adds the bias row. Block `t` of the output is rows `2000·t … 2000·t + 1999`,
  and the 25 blocks tile the array.

  The proof follows that description. The body is pointwise, so its one store is read at a row `r` and a feature `o` of
  the tile as the same arithmetic of the tile's five input blocks (`tile`, `store_apply`); each input block at `(r, o)`
  is its array at node `2000·t + r` (the bias block is the whole bias row), so tile `t` of the output is tile `t` of
  `combine` (`tile_written`); and node `n` lies in tile `n / 2000` (`tiles_cover`).
-/
import proofs.«180509_j31851477467635_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.CombineValue

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- One filter's contribution at node `n`, feature `o`: the node scale times the rectified `s + (σ · eps) · t`. -/
def contrib (sgn : BitVec 32) (t s : S3x50000x96.Idx → EReal) (eps : S50000x1.Idx → EReal) (dsT : S50000x3.Idx → EReal)
    (f : Fin 3) (n : Fin 50000) (o : Fin 96) : EReal :=
  dsT (ix2 n f) * max (s (ix3 f n o) + (Ideal.ofBits .f32 sgn * eps (ix2 n (0 : Fin 1))) * t (ix3 f n o))
    (Ideal.ofBits .f32 0x00000000#32)

/-- The combined output: the three contributions added in order from zero, then the bias. -/
def combine (t s : S3x50000x96.Idx → EReal) (eps : S50000x1.Idx → EReal) (dsT : S50000x3.Idx → EReal)
    (b : S96.Idx → EReal) : S50000x96.Idx → EReal := fun i =>
  (((Ideal.ofBits .f32 0x00000000#32 + contrib 0xBF800000#32 t s eps dsT 0 (i 0) (i 1))
      + contrib 0x3F800000#32 t s eps dsT 1 (i 0) (i 1))
    + contrib 0x3F800000#32 t s eps dsT 2 (i 0) (i 1)) + b (ix1 (i 1))

/-! ## Columns: a vector as a one-column matrix, and a column spread over the features -/

section Columns
variable {α : Type}

/-- An `[a, 1]` column cast to `[a]` reads, at `i`, the column's entry `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a]` vector cast to an `[a, 1]` column reads, at `(i, u)`, the vector's entry `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Columns

/-! ## The body's arithmetic at a row `r` and a feature `o` of the tile -/

theorem zeroOff1 : (![0] : Fin 1 → Nat) = fun _ => 0 := funext fun a => by fin_cases a <;> rfl
theorem zeroOff2 : (![0, 0] : Fin 2 → Nat) = fun _ => 0 := funext fun a => by fin_cases a <;> rfl

/-- The `eps` column enters the arithmetic as loaded. -/
theorem epsCol_eq (v0 : Vec Ideal S2000x1 .f32) : k1_pay2 v0 = v0 := by
  unfold k1_pay2; exact shapeCast_self _ _

/-- The three scale columns enter the arithmetic as loaded. -/
theorem scales_eq (v2 : Vec Ideal S2000x3 .f32) : k1_pay3 v2 = v2 := by
  unfold k1_pay3; exact shapeCast_self _ _

/-- Filter 1's scale column: column 1 of the scales. -/
theorem scale1_apply (v2 : Vec Ideal S2000x3 .f32) (r : Fin 2000) (u : Fin 1) :
    k1_pay6 v2 (ix2 r u) = v2 (ix2 r (1 : Fin 3)) := by
  unfold k1_pay6
  rw [scales_eq]
  refine (shapeCast_a_a1_apply _ _ r u).trans ?_
  refine (shapeCast_a1_a_apply _ _ r).trans ?_
  exact slice2_axis1_apply 1 v2 _ r (0 : Fin 1) (1 : Fin 3) rfl

/-- Filter 1's rectified term: the sparse product plus the column entry times the projected feature, cut off at zero. -/
theorem rectified1_apply (v0 : Vec Ideal S2000x1 .f32) (v23 v25 : Vec Ideal S1x2000x96 .f32) (r : Fin 2000) (o : Fin 96) :
    k1_pay5 v0 v23 v25 (ix2 r o)
      = max ((v25 (ix3 (0 : Fin 1) r o) : EReal) + (Ideal.ofBits .f32 0x3F800000#32 * v0 (ix2 r (0 : Fin 1))) * v23 (ix3 (0 : Fin 1) r o))
          (Ideal.ofBits .f32 0x00000000#32) := by
  unfold k1_pay5
  rw [epsCol_eq]
  simp only [maximumf_apply, addf_apply, mulf_apply, broadcast_apply]
  rw [shapeCast_1ab_ab_apply v25, shapeCast_1ab_ab_apply v23, broadcastTo_a1_ab_apply]
  rfl

/-- Filter 0's contribution, added to zero: its sign is −1. -/
theorem filter0_apply (v0 : Vec Ideal S2000x1 .f32) (v2 : Vec Ideal S2000x3 .f32) (v6 v8 : Vec Ideal S1x2000x96 .f32) (r : Fin 2000) (o : Fin 96) :
    k1_pay4 v0 v2 v6 v8 (ix2 r o)
      = Ideal.ofBits .f32 0x00000000#32 + (v2 (ix2 r (0 : Fin 3)) : EReal)
          * max ((v8 (ix3 (0 : Fin 1) r o) : EReal) + (Ideal.ofBits .f32 0xBF800000#32 * v0 (ix2 r (0 : Fin 1))) * v6 (ix3 (0 : Fin 1) r o))
              (Ideal.ofBits .f32 0x00000000#32) := by
  unfold k1_pay4
  rw [epsCol_eq, scales_eq]
  simp only [maximumf_apply, addf_apply, mulf_apply, broadcast_apply]
  rw [shapeCast_1ab_ab_apply v8, shapeCast_1ab_ab_apply v6, broadcastTo_a1_ab_apply, broadcastTo_a1_ab_apply,
    shapeCast_a_a1_apply, shapeCast_a1_a_apply, slice2_axis1_eq]
  rfl

/-- The stored value: filter 0's term, plus filter 1's scale times its rectified term, plus filter 2's contribution,
    plus the bias. -/
theorem stored_apply (v1 : FVec Ideal S2000x1 .f32) (v3 : FVec Ideal S2000x3 .f32) (v4 : Vec Ideal S96 .f32)
    (v22 v33 : FVec Ideal S2000x96 .f32) (v36 : FVec Ideal S2000x1 .f32) (v40 v42 : Vec Ideal S1x2000x96 .f32) (r : Fin 2000) (o : Fin 96) :
    k1_pay1 v1 v3 v4 v22 v33 v36 v40 v42 (ix2 r o)
      = ((v22 (ix2 r o) + v36 (ix2 r (0 : Fin 1)) * v33 (ix2 r o))
          + v3 (ix2 r (2 : Fin 3)) * max ((v42 (ix3 (0 : Fin 1) r o) : EReal) + (Ideal.ofBits .f32 0x3F800000#32 * v1 (ix2 r (0 : Fin 1))) * v40 (ix3 (0 : Fin 1) r o))
              (Ideal.ofBits .f32 0x00000000#32))
        + (v4 (ix1 o) : EReal) := by
  unfold k1_pay1
  simp only [maximumf_apply, addf_apply, mulf_apply, broadcast_apply]
  rw [shapeCast_1ab_ab_apply v42, shapeCast_1ab_ab_apply v40, broadcastTo_a1_ab_apply, broadcastTo_a1_ab_apply, broadcastTo_a1_ab_apply,
    shapeCast_a_a1_apply, shapeCast_a1_a_apply, slice2_axis1_eq, broadcastTo_1b_ab_apply, shapeCast_a_1a_apply]
  rfl

/-- A load of filter `k`'s slab of a `[3, 2000, 96]` block reads the block at that filter. -/
theorem ld_slab (x : Vec Ideal S3x2000x96 .f32) (k : Nat) (hk : k < 3) (inb) (u : Fin 1) (r : Fin 2000) (o : Fin 96) :
    View.ld x (Rect.unit (s := S3x2000x96) ![k, 0, 0] S1x2000x96.size inb) (ix3 u r o) = x (ix3 (⟨k, hk⟩ : Fin 3) r o) := by
  show x _ = x _
  refine congrArg x (funext fun a => Fin.ext ?_)
  have hu : u.val = 0 := by omega
  match a with
  | ⟨0, _⟩ => show k + 1 * u.val = k; omega
  | ⟨1, _⟩ => show 0 + 1 * r.val = r.val; omega
  | ⟨2, _⟩ => show 0 + 1 * o.val = o.val; omega

/-! ## One tile of the output from the tile's input blocks -/

/-- One filter's contribution inside a tile, at the tile's row `r`, feature `o`, from the tile's blocks. -/
def tileContrib (sgn : BitVec 32) (x0 x1 : S3x2000x96.Idx → EReal) (x2 : S2000x1.Idx → EReal) (x3 : S2000x3.Idx → EReal)
    (f : Fin 3) (r : Fin 2000) (o : Fin 96) : EReal :=
  x3 (ix2 r f) * max (x1 (ix3 f r o) + (Ideal.ofBits .f32 sgn * x2 (ix2 r (0 : Fin 1))) * x0 (ix3 f r o))
    (Ideal.ofBits .f32 0x00000000#32)

/-- What the body computes for a tile: the three contributions added in order from zero, then the bias. -/
def tile (x0 x1 : S3x2000x96.Idx → EReal) (x2 : S2000x1.Idx → EReal) (x3 : S2000x3.Idx → EReal) (x4 : S96.Idx → EReal)
    (r : Fin 2000) (o : Fin 96) : EReal :=
  (((Ideal.ofBits .f32 0x00000000#32 + tileContrib 0xBF800000#32 x0 x1 x2 x3 0 r o)
      + tileContrib 0x3F800000#32 x0 x1 x2 x3 1 r o)
    + tileContrib 0x3F800000#32 x0 x1 x2 x3 2 r o) + x4 (ix1 o)

/-- The body's one store, read at row `r`, feature `o` of the tile, is `tile` of the five input blocks. -/
theorem store_apply (x0 x1 : Vec Ideal S3x2000x96 .f32) (x2 : Vec Ideal S2000x1 .f32) (x3 : Vec Ideal S2000x3 .f32)
    (x4 : Vec Ideal S96 .f32) (r : Fin 2000) (o : Fin 96) :
    out1_5 x0 x1 x2 x3 x4 (ix2 r o) = tile x0 x1 x2 x3 x4 r o := by
  unfold out1_5
  rw [View.canon_unit_zero zeroOff2]
  simp only [View.ld_unit_zero (S := S2000x1) zeroOff2, View.ld_unit_zero (S := S2000x3) zeroOff2,
    View.ld_unit_zero (S := S96) zeroOff1]
  rw [stored_apply, filter0_apply, rectified1_apply, scale1_apply, epsCol_eq, scales_eq]
  rw [ld_slab x0 0 (by decide), ld_slab x1 0 (by decide), ld_slab x0 1 (by decide), ld_slab x1 1 (by decide),
    ld_slab x0 2 (by decide), ld_slab x1 2 (by decide)]
  rfl

/-! ## Where tile `t` sits in each array -/

/-- The index maps over the 25 grid points: every row-tiled window is at row tile `t`, the bias window at 0. -/
theorem tile_index : ∀ t : Fin cfg1.N,
    win1_0.index t (0 : Fin 3) = 0 ∧ win1_0.index t (1 : Fin 3) = t.val ∧ win1_0.index t (2 : Fin 3) = 0
    ∧ win1_1.index t (0 : Fin 3) = 0 ∧ win1_1.index t (1 : Fin 3) = t.val ∧ win1_1.index t (2 : Fin 3) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 1) = 0
    ∧ win1_5.index t (0 : Fin 2) = t.val ∧ win1_5.index t (1 : Fin 2) = 0 ∧ t.val < 25 :=
  (by decide +kernel : ∀ t : Fin grid1.N, _)

/-- The arrays the region is entered with: projected features, sparse product, `eps` column, node scales, bias. -/
abbrev tArr (c : Dev nD) : S3x50000x96.Idx → EReal := V c main_v5
abbrev sArr (c : Dev nD) : S3x50000x96.Idx → EReal := V c main_v31
abbrev epsArr (c : Dev nD) : S50000x1.Idx → EReal := V c main_v14
abbrev dsArr (c : Dev nD) : S50000x3.Idx → EReal := V c main_v4
abbrev biasArr (c : Dev nD) : S96.Idx → EReal := V c main_arg4

/-- Their blocks at tile `t`. -/
abbrev tBlk (c : Dev nD) (t : Fin cfg1.N) : S3x2000x96.Idx → EReal := iblk1 V c 0 t
abbrev sBlk (c : Dev nD) (t : Fin cfg1.N) : S3x2000x96.Idx → EReal := iblk1 V c 1 t
abbrev epsBlk (c : Dev nD) (t : Fin cfg1.N) : S2000x1.Idx → EReal := iblk1 V c 2 t
abbrev dsBlk (c : Dev nD) (t : Fin cfg1.N) : S2000x3.Idx → EReal := iblk1 V c 3 t
abbrev biasBlk (c : Dev nD) (t : Fin cfg1.N) : S96.Idx → EReal := iblk1 V c 4 t

/-- Row `r` of tile `t` of the projected features is node `2000·t + r`. -/
theorem tBlk_apply (c : Dev nD) (t : Fin cfg1.N) (f : Fin 3) (r : Fin 2000) (o : Fin 96) (n : Fin 50000)
    (hn : n.val = t.val * 2000 + r.val) : tBlk V c t (ix3 f r o) = tArr V c (ix3 f n o) := by
  obtain ⟨e0, e1, e2, -⟩ := tile_index t
  show V c main_v5 (((cfg1.win 0).blk t).view.emb (ix3 f r o)) = V c main_v5 (ix3 f n o)
  refine congrArg _ (funext fun a => Fin.ext ?_)
  match a with
  | ⟨0, _⟩ => show win1_0.index t (0 : Fin 3) * 3 + 1 * f.val = f.val; omega
  | ⟨1, _⟩ => show win1_0.index t (1 : Fin 3) * 2000 + 1 * r.val = n.val; omega
  | ⟨2, _⟩ => show win1_0.index t (2 : Fin 3) * 96 + 1 * o.val = o.val; omega

/-- The same of the sparse product. -/
theorem sBlk_apply (c : Dev nD) (t : Fin cfg1.N) (f : Fin 3) (r : Fin 2000) (o : Fin 96) (n : Fin 50000)
    (hn : n.val = t.val * 2000 + r.val) : sBlk V c t (ix3 f r o) = sArr V c (ix3 f n o) := by
  obtain ⟨-, -, -, e0, e1, e2, -⟩ := tile_index t
  show V c main_v31 (((cfg1.win 1).blk t).view.emb (ix3 f r o)) = V c main_v31 (ix3 f n o)
  refine congrArg _ (funext fun a => Fin.ext ?_)
  match a with
  | ⟨0, _⟩ => show win1_1.index t (0 : Fin 3) * 3 + 1 * f.val = f.val; omega
  | ⟨1, _⟩ => show win1_1.index t (1 : Fin 3) * 2000 + 1 * r.val = n.val; omega
  | ⟨2, _⟩ => show win1_1.index t (2 : Fin 3) * 96 + 1 * o.val = o.val; omega

/-- The same of the `eps` column. -/
theorem epsBlk_apply (c : Dev nD) (t : Fin cfg1.N) (r : Fin 2000) (u : Fin 1) (n : Fin 50000)
    (hn : n.val = t.val * 2000 + r.val) : epsBlk V c t (ix2 r u) = epsArr V c (ix2 n u) := by
  obtain ⟨-, -, -, -, -, -, e0, e1, -⟩ := tile_index t
  show V c main_v14 (((cfg1.win 2).blk t).view.emb (ix2 r u)) = V c main_v14 (ix2 n u)
  refine congrArg _ (funext fun a => Fin.ext ?_)
  match a with
  | ⟨0, _⟩ => show win1_2.index t (0 : Fin 2) * 2000 + 1 * r.val = n.val; omega
  | ⟨1, _⟩ => show win1_2.index t (1 : Fin 2) * 1 + 1 * u.val = u.val; omega

/-- The same of the node scales. -/
theorem dsBlk_apply (c : Dev nD) (t : Fin cfg1.N) (r : Fin 2000) (f : Fin 3) (n : Fin 50000)
    (hn : n.val = t.val * 2000 + r.val) : dsBlk V c t (ix2 r f) = dsArr V c (ix2 n f) := by
  obtain ⟨-, -, -, -, -, -, -, -, e0, e1, -⟩ := tile_index t
  show V c main_v4 (((cfg1.win 3).blk t).view.emb (ix2 r f)) = V c main_v4 (ix2 n f)
  refine congrArg _ (funext fun a => Fin.ext ?_)
  match a with
  | ⟨0, _⟩ => show win1_3.index t (0 : Fin 2) * 2000 + 1 * r.val = n.val; omega
  | ⟨1, _⟩ => show win1_3.index t (1 : Fin 2) * 3 + 1 * f.val = f.val; omega

/-- The bias block is the whole bias row at every tile. -/
theorem biasBlk_apply (c : Dev nD) (t : Fin cfg1.N) (o : Fin 96) : biasBlk V c t (ix1 o) = biasArr V c (ix1 o) := by
  obtain ⟨-, -, -, -, -, -, -, -, -, -, e0, -⟩ := tile_index t
  show V c main_arg4 (((cfg1.win 4).blk t).view.emb (ix1 o)) = V c main_arg4 (ix1 o)
  refine congrArg _ (funext fun a => Fin.ext ?_)
  match a with
  | ⟨0, _⟩ => show win1_4.index t (0 : Fin 1) * 96 + 1 * o.val = o.val; omega

/-- Row `r`, feature `o` of output tile `t` is index `(2000·t + r, o)` of the output array. -/
theorem outBlk_emb (t : Fin cfg1.N) (r : Fin 2000) (o : Fin 96) (n : Fin 50000)
    (hn : n.val = t.val * 2000 + r.val) : ((cfg1.win 5).blk t).view.emb (ix2 r o) = ix2 n o := by
  obtain ⟨-, -, -, -, -, -, -, -, -, -, -, e0, e1, -⟩ := tile_index t
  refine funext fun a => Fin.ext ?_
  match a with
  | ⟨0, _⟩ => show win1_5.index t (0 : Fin 2) * 2000 + 1 * r.val = n.val; omega
  | ⟨1, _⟩ => show win1_5.index t (1 : Fin 2) * 96 + 1 * o.val = o.val; omega

/-! ## From tiles to the array -/

/-- Tile `t` of an array over the output's shape, read at the tile's row `r`, feature `o`, is the array at node `2000·t + r`. -/
theorem read_outBlk (G : S50000x96.Idx → EReal) (t : Fin cfg1.N) (r : Fin 2000) (o : Fin 96) (n : Fin 50000)
    (hn : n.val = t.val * 2000 + r.val) : ((cfg1.win 5).blk t).view.read (Elt Ideal) G (ix2 r o) = G (ix2 n o) := by
  rw [View.read_apply, outBlk_emb t r o n hn]
  rfl

/-- One filter's contribution inside tile `t`, from the tile's blocks, is its contribution at node `2000·t + r` from the arrays. -/
theorem tileContrib_eq (c : Dev nD) (t : Fin cfg1.N) (sgn : BitVec 32) (f : Fin 3) (r : Fin 2000) (o : Fin 96) (n : Fin 50000)
    (hn : n.val = t.val * 2000 + r.val) :
    tileContrib sgn (tBlk V c t) (sBlk V c t) (epsBlk V c t) (dsBlk V c t) f r o
      = contrib sgn (tArr V c) (sArr V c) (epsArr V c) (dsArr V c) f n o := by
  unfold tileContrib contrib
  rw [tBlk_apply V c t f r o n hn, sBlk_apply V c t f r o n hn, epsBlk_apply V c t r 0 n hn, dsBlk_apply V c t r f n hn]

/-- The combination at an index written by its coordinates. -/
theorem combine_ix2 (t s : S3x50000x96.Idx → EReal) (eps : S50000x1.Idx → EReal) (dsT : S50000x3.Idx → EReal)
    (b : S96.Idx → EReal) (n : Fin 50000) (o : Fin 96) :
    combine t s eps dsT b (ix2 n o)
      = (((Ideal.ofBits .f32 0x00000000#32 + contrib 0xBF800000#32 t s eps dsT 0 n o)
          + contrib 0x3F800000#32 t s eps dsT 1 n o)
        + contrib 0x3F800000#32 t s eps dsT 2 n o) + b (ix1 o) := rfl

/-- What grid point `t` writes back is tile `t` of the combination of the arrays the region was entered with. -/
theorem tile_written (c : Dev nD) (t : Fin cfg1.N) :
    (dat1 (F := Ideal) V c).flushed 5 t
      = ((cfg1.win 5).blk t).view.read (Elt Ideal)
          (combine (V c main_v5) (V c main_v31) (V c main_v14) (V c main_v4) (V c main_arg4)) := by
  show (cfg1.win 5).cut (grid1.coords t) ((dat1 V c).after 5 t) = _
  rw [after1_5]
  refine funext fun (j : S2000x96.Idx) => ?_
  obtain ⟨r, o, rfl⟩ : ∃ (r : Fin 2000) (o : Fin 96), j = ix2 r o := ⟨j 0, j 1, eq_ix2 j⟩
  have hlt : t.val < 25 := (tile_index t).2.2.2.2.2.2.2.2.2.2.2.2.2
  have hn : t.val * 2000 + r.val < 50000 := by have := r.isLt; omega
  refine (store_apply (tBlk V c t) (sBlk V c t) (epsBlk V c t) (dsBlk V c t) (biasBlk V c t) r o).trans ?_
  refine Eq.trans ?_ (read_outBlk (combine (V c main_v5) (V c main_v31) (V c main_v14) (V c main_v4) (V c main_arg4)) t r o ⟨_, hn⟩ rfl).symm
  refine Eq.trans ?_ (combine_ix2 (tArr V c) (sArr V c) (epsArr V c) (dsArr V c) (biasArr V c) ⟨_, hn⟩ o).symm
  unfold tile
  rw [tileContrib_eq V c t _ 0 r o ⟨_, hn⟩ rfl, tileContrib_eq V c t _ 1 r o ⟨_, hn⟩ rfl,
    tileContrib_eq V c t _ 2 r o ⟨_, hn⟩ rfl, biasBlk_apply V c t o]

/-- An index of the output array is in tile `t` iff each coordinate is in the tile's range on its axis. -/
theorem mem_tile (t : Fin cfg1.N) (i : S50000x96.Idx) :
    i ∈ ((cfg1.win 5).blk t).view.set ↔ ∀ a : Fin 2, win1_5.index t a * S2000x96.size a ≤ (i a).val
      ∧ (i a).val < win1_5.index t a * S2000x96.size a + S2000x96.size a := by
  show i ∈ ((View.whole main_v32).slice (win1_5.rect t)).set ↔ _
  rw [View.set_slice_whole, Rect.mem_set_unit]
  exact Iff.rfl

/-- The 25 tiles cover the array: node `n` is in tile `n / 2000`. -/
theorem tiles_cover (i : S50000x96.Idx) :
    ∃ t : Fin cfg1.N, (cfg1.win 5).flush t = true ∧ i ∈ ((cfg1.win 5).blk t).view.set := by
  have hi0 : (i 0).val < 50000 := (i 0).isLt
  have hi1 : (i 1).val < 96 := (i 1).isLt
  obtain ⟨t, ht⟩ : ∃ t : Fin cfg1.N, t.val = (i 0).val / 2000 :=
    ⟨⟨(i 0).val / 2000, show (i 0).val / 2000 < 25 by omega⟩, rfl⟩
  obtain ⟨-, -, -, -, -, -, -, -, -, -, -, e0, e1, -⟩ := tile_index t
  refine ⟨t, flush1_5 t, ?_⟩
  rw [mem_tile]
  intro a
  match a with
  | ⟨0, _⟩ =>
    show win1_5.index t (0 : Fin 2) * 2000 ≤ (i 0).val ∧ (i 0).val < win1_5.index t (0 : Fin 2) * 2000 + 2000
    omega
  | ⟨1, _⟩ =>
    show win1_5.index t (1 : Fin 2) * 96 ≤ (i 1).val ∧ (i 1).val < win1_5.index t (1 : Fin 2) * 96 + 96
    omega

/-- After the region its output array holds the combination of the arrays it was entered with. -/
theorem final (c : Dev nD) :
    (dat1 (F := Ideal) V c).arrAt 5 cfg1.N
      = combine (V c main_v5) (V c main_v31) (V c main_v14) (V c main_v4) (V c main_arg4) :=
  (dat1 (F := Ideal) V c).arrAt_eq_of_cover 5
    (combine (V c main_v5) (V c main_v31) (V c main_v14) (V c main_v4) (V c main_arg4))
    (fun t _ => tile_written V c t) tiles_cover

end Cert.KernelIdeal.CombineValue

end
-- ==== Proof.LibRowOps.lean ====
/-
  A row gather and a row scatter-add read at an index, over any extents.

  `x[idx]` of a table `x : [N, C]` at a column of row numbers `idx : [E, 1]` is a gather whose result `[E, C]` holds, at
  `(e, c)`, the table's row `idx[e, 0]` (read as a signed integer and clamped into `[0, N − 1]`) at column `c`. The
  accumulating scatter of updates `u : [E, C]` into `x : [N, C]` at the same kind of column adds, at `(n, c)`, every
  `u[e, c]` whose row number `idx[e, 0]`, read as a signed integer and NOT clamped, is `n`; an update whose row number
  is no row is dropped. Both are stated for any dimension record with those dimension numbers (each hypothesis is
  closed by `rfl` at a literal record), so one statement serves tables of different widths.

  The road, for both: the hypotheses make the record the literal one; on the row axis (collapsed / inserted, and the one
  the index map names) the start is the row number read off `idx[e, 0]` and the offset / window coordinate is 0; on the
  column axis the start is 0 and the offset / window coordinate is the column. For the scatter an update `(e, c')` then
  lands at `(n, c)` exactly when its row number is `n` and `c' = c` (the column is always in range), and the sum over
  the rank-2 update indices, split into rows and columns, keeps one column per row.
-/
import Idealize.ShloMosaic.PureOps.Ideal
import Idealize.ShloMosaic.Lib.ValueIdx

noncomputable section

namespace Idealize.ShloMosaic.RowOps

open Idealize.ShloMosaic Idealize.ShloMosaic.ValueIdx

/-- **A row gather at `(e, c)`**: the table at the clamped row number, same column. -/
theorem rowGather_apply {α : Type} {N E C w : Nat} (hN : 0 < N)
    (d : GatherDims ⟨2, ![N, C]⟩ ⟨2, ![E, 1]⟩ ⟨2, ![E, C]⟩)
    (hod : d.offsetDims = [1]) (hcd : d.collapsedSliceDims = [0]) (hob : d.operandBatchingDims = [])
    (hsb : d.startIndicesBatchingDims = []) (hsm : d.startIndexMap = [0]) (hiv : d.indexVectorDim = 1)
    (hss : d.sliceSizes = ![1, C])
    (x : (⟨2, ![N, C]⟩ : Shape).Idx → α) (idx : IVec ⟨2, ![E, 1]⟩ w) (e : Fin E) (c : Fin C) :
    Host.gather d x idx (ix2 e c)
      = x (ix2 (⟨min (idx (ix2 e (0 : Fin 1))).toInt.toNat (N - 1), by omega⟩ : Fin N) c) := by
  obtain ⟨od, cd, ob, sb, sm, iv, ss, wf⟩ := d
  simp only at hod hcd hob hsb hsm hiv hss
  subst hod hcd hob hsb hsm hiv hss
  unfold Host.gather
  congr 1
  funext a
  refine Fin.ext ?_
  match a with
  | ⟨0, _⟩ =>
    -- the row axis: collapsed, so no offset; its start is the clamped row number, `N - 1` being `size − slice size`
    show GatherDims.start _ _ idx 0 + GatherDims.batchCoord _ _ 0 + GatherDims.offCoord _ _ 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ [(0 : Fin 2)] from List.mem_singleton.mpr rfl)]
    have hsi : GatherDims.siIdx (s := ⟨2, ![N, C]⟩) (si := ⟨2, ![E, 1]⟩) (t := ⟨2, ![E, C]⟩)
        ⟨[1], [0], [], [], [0], 1, ![1, C], wf⟩ (ix2 e c)
        ⟨List.idxOf (0 : Fin 2) [(0 : Fin 2)], List.idxOf_lt_length_iff.2 (List.mem_singleton.mpr rfl)⟩
        = ix2 e (0 : Fin 1) := by
      funext b; refine Fin.ext ?_
      match b with
      | ⟨0, _⟩ => rfl
      | ⟨1, _⟩ => rfl
    rw [hsi]
    rfl
  | ⟨1, _⟩ =>
    -- the column axis: not in the start index map, so start 0; the offset is the result's column
    show GatherDims.start _ _ idx 1 + GatherDims.batchCoord _ _ 1 + GatherDims.offCoord _ _ 1 = _
    rw [GatherDims.batchCoord_eq_zero _ _ _ List.not_mem_nil]
    unfold GatherDims.start
    rw [dif_neg (show ¬ ((1 : Fin 2) ∈ [(0 : Fin 2)]) by decide)]
    unfold GatherDims.offCoord
    rw [dif_pos ((GatherDims.mem_sKept _ _).mpr
      ⟨(show ¬ ((1 : Fin 2) ∈ [(0 : Fin 2)]) by decide), List.not_mem_nil⟩)]
    simp only [Nat.zero_add]
    rfl

/-- The literal record of the row scatter's dimension numbers. -/
private abbrev sdims {N E C : Nat}
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ :=
  { updateWindowDims := [1], insertedWindowDims := [0], scatterDimsToOperandDims := [0], indexVectorDim := 1, wf := wf }

/-- An operand axis is kept exactly when it is not listed. -/
private theorem mem_kept (s : Shape) (axes : List (Fin s.rank)) (a : Fin s.rank) : a ∈ s.kept axes ↔ a ∉ axes := by
  simp [Shape.kept, List.mem_filter, List.mem_finRange]

section
variable {N E C w : Nat} (wf : ScatterDims.WF ⟨2, ![N, C]⟩ ⟨2, ![E, 1]⟩ ⟨2, ![E, C]⟩ [1] [0] [0] 1)
  (idx : IVec ⟨2, ![E, 1]⟩ w) (e : Fin E) (c' : Fin C)

/-- On the row axis the window starts at the signed row number. -/
private theorem sdims_start0 : (sdims wf).start (ix2 e c') idx 0 = (idx (ix2 e (0 : Fin 1))).toInt := by
  unfold ScatterDims.start
  rw [dif_pos (show (0 : Fin 2) ∈ [(0 : Fin 2)] from List.mem_singleton.mpr rfl)]
  have hsi : (sdims wf).siIdx (ix2 e c')
      ⟨List.idxOf (0 : Fin 2) [(0 : Fin 2)], List.idxOf_lt_length_iff.2 (List.mem_singleton.mpr rfl)⟩
      = ix2 e (0 : Fin 1) := by
    funext b; refine Fin.ext ?_
    match b with
    | ⟨0, _⟩ => rfl
    | ⟨1, _⟩ => rfl
  rw [hsi]

/-- On the column axis the window starts at 0. -/
private theorem sdims_start1 : (sdims wf).start (ix2 e c') idx 1 = 0 := by
  unfold ScatterDims.start
  rw [dif_neg (show ¬ ((1 : Fin 2) ∈ [(0 : Fin 2)]) by decide)]

/-- The row axis is inserted: window coordinate 0. -/
private theorem sdims_window0 : (sdims wf).window (ix2 e c') 0 = 0 := by
  unfold ScatterDims.window
  rw [dif_neg (fun h => ((mem_kept _ _ _).mp h) (List.mem_singleton.mpr rfl))]

/-- The column axis carries the update's column. -/
private theorem sdims_window1 : (sdims wf).window (ix2 e c') 1 = c'.val := by
  unfold ScatterDims.window
  rw [dif_pos ((mem_kept _ _ _).mpr (show ¬ ((1 : Fin 2) ∈ [(0 : Fin 2)]) by decide))]
  rfl

/-- An update at `(e, c')` lands at `(n, c)` exactly when its signed row number is `n` and its column is `c`. -/
private theorem sdims_resultIdx_iff (n : Fin N) (c : Fin C) :
    (sdims wf).resultIdx? (ix2 e c') idx = some (ix2 n c)
      ↔ ((idx (ix2 e (0 : Fin 1))).toInt = (n.val : Int) ∧ c' = c) := by
  have hs0 := sdims_start0 wf idx e c'
  have hs1 := sdims_start1 wf idx e c'
  have hw0 := sdims_window0 wf e c'
  have hw1 := sdims_window1 wf e c'
  unfold ScatterDims.resultIdx?
  constructor
  · intro h
    split at h
    · rename_i hall
      have h' := Option.some.inj h
      have h0 : ((sdims wf).start (ix2 e c') idx 0 + ((sdims wf).window (ix2 e c') 0 : Nat)).toNat = n.val :=
        congrArg (fun f => (f 0).val) h'
      have h1 : ((sdims wf).start (ix2 e c') idx 1 + ((sdims wf).window (ix2 e c') 1 : Nat)).toNat = c.val :=
        congrArg (fun f => (f 1).val) h'
      have ha := (hall 0).1
      rw [hs0, hw0] at h0 ha
      rw [hs1, hw1] at h1
      refine ⟨by omega, Fin.ext (by omega)⟩
    · exact absurd h (by simp)
  · rintro ⟨h0, rfl⟩
    have hn : n.val < N := n.isLt
    have hc : c'.val < C := c'.isLt
    have hall : ∀ a : Fin 2, 0 ≤ (sdims wf).start (ix2 e c') idx a + ((sdims wf).window (ix2 e c') a : Nat) ∧
        (sdims wf).start (ix2 e c') idx a + ((sdims wf).window (ix2 e c') a : Nat)
          < ((⟨2, ![N, C]⟩ : Shape).size a : Nat) := by
      intro a
      match a with
      | ⟨0, _⟩ =>
        show 0 ≤ (sdims wf).start (ix2 e c') idx 0 + ((sdims wf).window (ix2 e c') 0 : Nat) ∧
          (sdims wf).start (ix2 e c') idx 0 + ((sdims wf).window (ix2 e c') 0 : Nat) < (N : Int)
        rw [hs0, hw0, h0]; omega
      | ⟨1, _⟩ =>
        show 0 ≤ (sdims wf).start (ix2 e c') idx 1 + ((sdims wf).window (ix2 e c') 1 : Nat) ∧
          (sdims wf).start (ix2 e c') idx 1 + ((sdims wf).window (ix2 e c') 1 : Nat) < (C : Int)
        rw [hs1, hw1]; omega
    rw [dif_pos hall]
    congr 1
    funext a; refine Fin.ext ?_
    match a with
    | ⟨0, _⟩ =>
      show ((sdims wf).start (ix2 e c') idx 0 + ((sdims wf).window (ix2 e c') 0 : Nat)).toNat = n.val
      rw [hs0, hw0, h0]; omega
    | ⟨1, _⟩ =>
      show ((sdims wf).start (ix2 e c') idx 1 + ((sdims wf).window (ix2 e c') 1 : Nat)).toNat = c'.val
      rw [hs1, hw1]; omega

end

/-- **A row scatter-add at `(n, c)`**, at the ideal values: the operand's element plus the sum of the updates of
    column `c` whose row number is `n`. -/
theorem rowScatterAdd_apply {N E C w : Nat}
    (d : ScatterDims ⟨2, ![N, C]⟩ ⟨2, ![E, 1]⟩ ⟨2, ![E, C]⟩)
    (huw : d.updateWindowDims = [1]) (hiw : d.insertedWindowDims = [0]) (hsd : d.scatterDimsToOperandDims = [0])
    (hiv : d.indexVectorDim = 1)
    (x : FVec Ideal ⟨2, ![N, C]⟩ .f32) (idx : IVec ⟨2, ![E, 1]⟩ w) (upd : FVec Ideal ⟨2, ![E, C]⟩ .f32)
    (n : Fin N) (c : Fin C) :
    Host.scatterAdd d x idx upd (ix2 n c)
      = x (ix2 n c) + ∑ e ∈ Finset.univ.filter (fun e : Fin E => (idx (ix2 e (0 : Fin 1))).toInt = (n.val : Int)),
          upd (ix2 e c) := by
  obtain ⟨uw, iw, sd, iv, wf⟩ := d
  simp only at huw hiw hsd hiv
  subst huw hiw hsd hiv
  rw [Host.scatterAdd, Ideal.hostScatterAdd_def, Ideal.hostScatterAdd]
  congr 1
  -- both sums as sums of `if`s; the left one over rows then columns; per row, only column `c` can contribute
  rw [Finset.sum_filter, Finset.sum_filter, sum_idx2]
  refine Finset.sum_congr rfl fun e _ => ?_
  have key : ∀ c' : Fin C, (sdims wf).resultIdx? (ix2 e c') idx = some (ix2 n c)
      ↔ ((idx (ix2 e (0 : Fin 1))).toInt = (n.val : Int) ∧ c' = c) :=
    fun c' => sdims_resultIdx_iff wf idx e c' n c
  simp only [key, ite_and]
  by_cases h : (idx (ix2 e (0 : Fin 1))).toInt = (n.val : Int)
  · simp only [if_pos h]
    rw [Finset.sum_ite_eq' Finset.univ c (fun b => upd (ix2 e b)), if_pos (Finset.mem_univ c)]
  · simp only [if_neg h]
    exact Finset.sum_const_zero

end Idealize.ShloMosaic.RowOps

end
-- ==== Proof.KernelHost.lean ====
/-
  What the arrays the two kernel regions read hold, in terms of the launch memory.

  Before the first region the host transposes the node scales: `dsT[n, f] = ds[f, n]`; `x` and `w` are read as launched.
  Between the regions the host computes `0.1/deg` as a column, and the sparse product of all three filters at once: the
  first region's output `t : [3, N, 96]` is laid out as a table `[N, 288]` (row `n`, column `96·f + o`), its rows are
  gathered at the edges' source nodes, weighted by the edge weights, added at the edges' target nodes from zero, and
  the result laid back out as `[3, N, 96]`. At `(f, n, o)` that is `0 + Σ_{e : target e = n} adj[e] · t[f, source e, o]`.
  The first region's output, the transposed scales and the bias reach the second region unchanged.
-/
import proofs.«180509_j31851477467635_1_alg».proof.Proof.Gen.KernelIdeal.Frame
import proofs.«180509_j31851477467635_1_alg».proof.Proof.Spec
import proofs.«180509_j31851477467635_1_alg».proof.Proof.LibRowOps
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HostValue

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (m : (ℓ : Loc nD τ sig) → Buf (Elt Ideal) ℓ) (ρ : Dev nD → PrngReg)

/-- The first region's output array, as the pipeline leaves it. -/
abbrev projArr (c : Dev nD) : S3x50000x96.Idx → EReal := (dat0 (F := Ideal) (V1 m ρ) c).arrAt 3 cfg0.N
/-- The edge weights as launched. -/
abbrev adjArr (c : Dev nD) : S800000.Idx → EReal := m ((c : Thread nD τ).loc main_arg1)
/-- The edge list as launched. -/
abbrev edgeArr (c : Dev nD) : IVec S2x800000 32 := m ((c : Thread nD τ).loc main_arg5)
/-- The second region's sparse-product array. -/
abbrev spmmArr (c : Dev nD) : S3x50000x96.Idx → EReal := V3 m ρ c main_v31
/-- The second region's column of `0.1/deg`. -/
abbrev epsArr (c : Dev nD) : S50000x1.Idx → EReal := V3 m ρ c main_v14
/-- The transposed node scales the regions read. -/
abbrev dsTArr (c : Dev nD) : S50000x3.Idx → EReal := V1 m ρ c main_v4
/-- The node scales as launched. -/
abbrev dsArr (c : Dev nD) : S3x50000.Idx → EReal := m ((c : Thread nD τ).loc main_arg2)

/-- No operation of the first host stretch writes the buffer at hand. -/
local macro "untouched0" : tactic =>
  `(tactic| (refine List.forall_iff_forall_mem.mp ?_
             simp only [hostOps0, List.Forall, StableHlo.nullary_writes, StableHlo.unary_writes, StableHlo.binary_writes,
               StableHlo.ternary_writes, StableHlo.reshape_writes, Finset.mem_singleton]
             repeat' apply And.intro
             all_goals exact StableHlo.devRef_ne_of_ne (by decide)))
/-- No operation of the second host stretch writes the buffer at hand. -/
local macro "untouched1" : tactic =>
  `(tactic| (refine List.forall_iff_forall_mem.mp ?_
             simp only [hostOps1, List.Forall, StableHlo.nullary_writes, StableHlo.unary_writes, StableHlo.binary_writes,
               StableHlo.ternary_writes, StableHlo.reshape_writes, Finset.mem_singleton]
             repeat' apply And.intro
             all_goals exact StableHlo.devRef_ne_of_ne (by decide)))

/-- The first region reads `x` as launched. -/
theorem V1_arg0 (c : Dev nD) : V1 m ρ c main_arg0 = m ((c : Thread nD τ).loc main_arg0) := by
  show StableHlo.after hostOps0 (W0 m ρ c) (Proc.devRef .tc main_arg0) = _
  exact StableHlo.after_of_forall_not_mem (b := Proc.devRef .tc main_arg0) _ _ (by untouched0)

/-- The first region reads the filter weights as launched. -/
theorem V1_arg3 (c : Dev nD) : V1 m ρ c main_arg3 = m ((c : Thread nD τ).loc main_arg3) := by
  show StableHlo.after hostOps0 (W0 m ρ c) (Proc.devRef .tc main_arg3) = _
  exact StableHlo.after_of_forall_not_mem (b := Proc.devRef .tc main_arg3) _ _ (by untouched0)

/-- The first region reads the node scales transposed. -/
theorem V1_v4 (c : Dev nD) (n : Fin 50000) (f : Fin 3) :
    dsTArr m ρ c (ix2 n f) = dsArr m c (ix2 f n) := by
  have e : (V1 m ρ c main_v4 : S50000x3.Idx → EReal)
      = transpose S50000x3 [1, 0] (dsArr m c) transposes_S3x50000_S50000x3_1_0 := by
    show StableHlo.after hostOps0 _ (Proc.devRef .tc main_v4) = _
    after_results
  show (V1 m ρ c main_v4 : S50000x3.Idx → EReal) (ix2 n f) = _
  rw [e]
  exact transpose_apply _ _ _ _ _ fun b => match b with
    | ⟨0, _⟩ => rfl
    | ⟨1, _⟩ => rfl

/-- The second region reads the first region's output as the first region left it. -/
theorem V3_v5 (c : Dev nD) : V3 m ρ c main_v5 = projArr m ρ c := by
  show StableHlo.after hostOps1 (W2 m ρ c) (Proc.devRef .tc main_v5) = _
  exact (StableHlo.after_of_forall_not_mem (b := Proc.devRef .tc main_v5) _ _ (by untouched1)).trans (W2_arr m ρ c 3)

/-- The second region reads the same transposed node scales as the first. -/
theorem V3_v4 (c : Dev nD) : V3 m ρ c main_v4 = V1 m ρ c main_v4 := by
  show StableHlo.after hostOps1 (W2 m ρ c) (Proc.devRef .tc main_v4) = _
  exact (StableHlo.after_of_forall_not_mem (b := Proc.devRef .tc main_v4) _ _ (by untouched1)).trans
    ((W2_arr m ρ c 2).trans (((dat0 (V1 m ρ) c).arrAt_in 2 rfl _).trans (A_eq0 (V1 m ρ) c 2)))

/-- The second region reads the bias as launched. -/
theorem V3_arg4 (c : Dev nD) : V3 m ρ c main_arg4 = m ((c : Thread nD τ).loc main_arg4) := by
  show StableHlo.after hostOps1 (W2 m ρ c) (Proc.devRef .tc main_arg4) = _
  refine (StableHlo.after_of_forall_not_mem (b := Proc.devRef .tc main_arg4) _ _ (by untouched1)).trans ?_
  refine (W2_of_ne m ρ c main_arg4 (by decide)).trans ?_
  exact StableHlo.after_of_forall_not_mem (b := Proc.devRef .tc main_arg4) _ _ (by untouched0)

/-- The target words, as the first host stretch leaves them: row 0 of the edge list. -/
theorem W1_v1 (c : Dev nD) :
    (W1 m ρ c (Proc.devRef .tc main_v1) : IVec S800000 32) = Cert.GraphFilter.targetWord (edgeArr m c) := by
  show StableHlo.after hostOps0 _ (Proc.devRef .tc main_v1) = _
  after_results
  rfl

/-- The source words, as the first host stretch leaves them: row 1 of the edge list. -/
theorem W1_v3 (c : Dev nD) :
    (W1 m ρ c (Proc.devRef .tc main_v3) : IVec S800000 32) = Cert.GraphFilter.sourceWord (edgeArr m c) := by
  show StableHlo.after hostOps0 _ (Proc.devRef .tc main_v3) = _
  after_results
  rfl

/-- The second region's column of `0.1/deg`, as an array: the vector `0.1/deg` laid out as a column. -/
theorem V3_v14_eq (c : Dev nD) :
    (V3 m ρ c main_v14 : S50000x1.Idx → EReal)
      = shapeCast S50000x1 (Cert.GraphFilter.epsOverDeg (edgeArr m c)) shapeCasts_S50000_S50000x1 := by
  show StableHlo.after hostOps1 (W2 m ρ c) (Proc.devRef .tc main_v14) = _
  after_results
  rw [W2_of_ne m ρ c main_v1 (by decide), W1_v1 m ρ c]
  rfl

/-- The second region's column of `0.1/deg`. -/
theorem V3_v14 (c : Dev nD) (n : Fin 50000) :
    epsArr m ρ c (ix2 n (0 : Fin 1)) = Cert.GraphFilter.epsOverDeg (edgeArr m c) (ix1 n) := by
  show (V3 m ρ c main_v14 : S50000x1.Idx → EReal) (ix2 n (0 : Fin 1)) = _
  rw [V3_v14_eq m ρ c]
  exact shapeCast_apply _ _ _ _ (by
    rw [Shape.rowMajor_val_one, Shape.rowMajor_val_two]
    show n.val = n.val * 1 + 0
    omega)

/-- The sparse product read at `(f, n, o)`, for any table `t : [3, N, 96]`, edge weights and edge list: the table laid out as
    `[N, 288]` (column `96·f + o`), its rows gathered at the sources, weighted, added at the targets from zero, and the
    result laid back out. -/
theorem spmm_apply (t : S3x50000x96.Idx → EReal) (adj : S800000.Idx → EReal) (ei : IVec S2x800000 32)
    (f : Fin 3) (n : Fin 50000) (o : Fin 96) :
    transpose S3x50000x96 [1, 0, 2]
        (shapeCast S50000x3x96
          (Host.scatterAdd scatter_S50000x288_S800000x1_S800000x288_1_0_0_1
            (broadcastInDim S50000x288 ![] bcast_S_S50000x288 (constant (F := Ideal) S_ .f32 0x00000000#32))
            (Cert.GraphFilter.targetIdx ei)
            (mulf (broadcastInDim S800000x288 ![0, 1] bcast_S800000x1_S800000x288_0_1
                    (broadcastInDim S800000x1 ![0] bcast_S800000_S800000x1_0 adj))
                  (Host.gather gather_S50000x288_S800000x1_S800000x288_1_0_n_n_0_1_1288
                    (shapeCast S50000x288 (transpose S50000x3x96 [1, 0, 2] t transposes_S3x50000x96_S50000x3x96_1_0_2)
                      shapeCasts_S50000x3x96_S50000x288)
                    (Cert.GraphFilter.sourceIdx ei))))
          shapeCasts_S50000x288_S50000x3x96)
        transposes_S50000x3x96_S3x50000x96_1_0_2 (ix3 f n o)
      = Ideal.ofBits .f32 0x00000000#32
        + ∑ e ∈ Finset.univ.filter (fun e : Fin 800000 => Cert.GraphFilter.target ei e = (n.val : Int)),
            adj (ix1 e) * t (ix3 f (Cert.GraphFilter.source ei e) o) := by
  have hc : 96 * f.val + o.val < 288 := by omega
  -- the outer layout: `(f, n, o)` of the result is `(n, 96·f + o)` of the table the scatter leaves
  refine (transpose_apply _ _ _ (ix3 f n o) (ix3 n f o) fun b => match b with
    | ⟨0, _⟩ => rfl | ⟨1, _⟩ => rfl | ⟨2, _⟩ => rfl).trans ?_
  refine (shapeCast_apply _ _ (ix3 n f o) (ix2 n (⟨96 * f.val + o.val, hc⟩ : Fin 288)) (by
    rw [Shape.rowMajor_val_two, Shape.rowMajor_val_three]
    show n.val * 288 + (96 * f.val + o.val) = (n.val * 3 + f.val) * 96 + o.val
    omega)).trans ?_
  -- the scatter: zero plus the updates of the edges targeting `n`
  refine (RowOps.rowScatterAdd_apply scatter_S50000x288_S800000x1_S800000x288_1_0_0_1 rfl rfl rfl rfl _ _ _ n
    (⟨96 * f.val + o.val, hc⟩ : Fin 288)).trans ?_
  refine congrArg₂ (· + ·) rfl (Finset.sum_congr rfl fun e _ => ?_)
  -- one edge's update: its weight times the gathered row
  refine congrArg₂ (· * ·) ?_ ?_
  · refine (broadcastInDim_apply _ _ _ (ix2 e (⟨96 * f.val + o.val, hc⟩ : Fin 288)) (ix2 e (0 : Fin 1)) fun a => match a with
      | ⟨0, _⟩ => rfl | ⟨1, _⟩ => rfl).trans ?_
    exact broadcastInDim_apply _ _ _ (ix2 e (0 : Fin 1)) (ix1 e) fun a => match a with
      | ⟨0, _⟩ => rfl
  · refine (RowOps.rowGather_apply (by omega) gather_S50000x288_S800000x1_S800000x288_1_0_n_n_0_1_1288 rfl rfl rfl rfl rfl rfl rfl
      _ _ e (⟨96 * f.val + o.val, hc⟩ : Fin 288)).trans ?_
    refine (shapeCast_apply _ _ (ix2 (Cert.GraphFilter.source ei e) (⟨96 * f.val + o.val, hc⟩ : Fin 288))
      (ix3 (Cert.GraphFilter.source ei e) f o) (by
        rw [Shape.rowMajor_val_two, Shape.rowMajor_val_three]
        show ((Cert.GraphFilter.source ei e).val * 3 + f.val) * 96 + o.val
          = (Cert.GraphFilter.source ei e).val * 288 + (96 * f.val + o.val)
        omega)).trans ?_
    exact transpose_apply _ _ _ (ix3 (Cert.GraphFilter.source ei e) f o) (ix3 f (Cert.GraphFilter.source ei e) o) fun b =>
      match b with
      | ⟨0, _⟩ => rfl | ⟨1, _⟩ => rfl | ⟨2, _⟩ => rfl

/-- The edge weights reach the second host stretch as launched. -/
theorem W2_arg1 (c : Dev nD) : (W2 m ρ c (Proc.devRef .tc main_arg1) : S800000.Idx → EReal) = adjArr m c := by
  refine (W2_of_ne m ρ c main_arg1 (by decide)).trans ?_
  exact StableHlo.after_of_forall_not_mem (b := Proc.devRef .tc main_arg1) _ _ (by untouched0)

/-- The second region's sparse-product array, as the operations that compute it from the first region's output, the
    edge weights and the edge list. -/
theorem V3_v31_eq (c : Dev nD) :
    (V3 m ρ c main_v31 : S3x50000x96.Idx → EReal)
      = transpose S3x50000x96 [1, 0, 2]
        (shapeCast S50000x3x96
          (Host.scatterAdd scatter_S50000x288_S800000x1_S800000x288_1_0_0_1
            (broadcastInDim S50000x288 ![] bcast_S_S50000x288 (constant (F := Ideal) S_ .f32 0x00000000#32))
            (Cert.GraphFilter.targetIdx (edgeArr m c))
            (mulf (broadcastInDim S800000x288 ![0, 1] bcast_S800000x1_S800000x288_0_1
                    (broadcastInDim S800000x1 ![0] bcast_S800000_S800000x1_0 (adjArr m c)))
                  (Host.gather gather_S50000x288_S800000x1_S800000x288_1_0_n_n_0_1_1288
                    (shapeCast S50000x288
                      (transpose S50000x3x96 [1, 0, 2] (projArr m ρ c) transposes_S3x50000x96_S50000x3x96_1_0_2)
                      shapeCasts_S50000x3x96_S50000x288)
                    (Cert.GraphFilter.sourceIdx (edgeArr m c)))))
          shapeCasts_S50000x288_S50000x3x96)
        transposes_S50000x3x96_S3x50000x96_1_0_2 := by
  show StableHlo.after hostOps1 (W2 m ρ c) (Proc.devRef .tc main_v31) = _
  after_results_simp
  rw [W2_of_ne m ρ c main_v1 (by decide), W1_v1 m ρ c, W2_of_ne m ρ c main_v3 (by decide), W1_v3 m ρ c,
    W2_arg1 m ρ c, show W2 m ρ c (Proc.devRef .tc main_v5) = projArr m ρ c from W2_arr m ρ c 3]
  rfl

/-- The second region's sparse product, at `(f, n, o)`: from zero, the sum over the edges targeting `n` of the edge
    weight times the first region's output at the edge's source. -/
theorem V3_v31 (c : Dev nD) (f : Fin 3) (n : Fin 50000) (o : Fin 96) :
    spmmArr m ρ c (ix3 f n o)
      = Ideal.ofBits .f32 0x00000000#32
        + ∑ e ∈ Finset.univ.filter (fun e : Fin 800000 => Cert.GraphFilter.target (edgeArr m c) e = (n.val : Int)),
            adjArr m c (ix1 e) * projArr m ρ c (ix3 f (Cert.GraphFilter.source (edgeArr m c) e) o) := by
  show (V3 m ρ c main_v31 : S3x50000x96.Idx → EReal) (ix3 f n o) = _
  rw [V3_v31_eq m ρ c]
  exact spmm_apply (projArr m ρ c) (adjArr m c) (edgeArr m c) f n o

end Cert.KernelIdeal.HostValue

end
-- ==== Proof.KernelValue.lean ====
/-
  The kernel program's result is the graph filter's output function of the arguments.

  The result array is what the second region leaves: the combination of the arrays that region reads. Those are the
  first region's projection `(Σ_k x[n, k] · w[f, k, o]) · dsT[n, f]`, which is the specification's
  `ds[f, n] · Σ_k x[n, k] · w[f, k, o]` because the product of extended reals commutes and `dsT` is `ds` transposed; the
  sparse product over the edge list of that projection; the column of `0.1/deg`; the transposed scales; the bias.
  Filter by filter the region's contribution is the specification's term.
-/
import proofs.«180509_j31851477467635_1_alg».proof.Proof.Gen.KernelIdeal.Frame
import proofs.«180509_j31851477467635_1_alg».proof.Proof.Spec
import proofs.«180509_j31851477467635_1_alg».proof.Proof.ProjValue
import proofs.«180509_j31851477467635_1_alg».proof.Proof.CombineValue
import proofs.«180509_j31851477467635_1_alg».proof.Proof.KernelHost
import Idealize.ShloMosaic.Lib.ValueIdx

set_option maxRecDepth 16384

noncomputable section

namespace Cert.KernelIdeal.KernelValue

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.HostValue

variable (m : (ℓ : Loc nD τ sig) → Buf (Elt Ideal) ℓ) (ρ : Dev nD → PrngReg)

/-- The node features as launched. -/
abbrev xArr (c : Dev nD) : S50000x256.Idx → EReal := m ((c : Thread nD τ).loc main_arg0)
/-- The filter weights as launched. -/
abbrev wArr (c : Dev nD) : S3x256x96.Idx → EReal := m ((c : Thread nD τ).loc main_arg3)
/-- The bias as launched. -/
abbrev bArr (c : Dev nD) : S96.Idx → EReal := m ((c : Thread nD τ).loc main_arg4)

/-- The first region's output at `(f, k, o)` is the specification's scaled projection: the region scales the product on
    the right by the transposed scale, the specification on the left by the scale. -/
theorem proj_feat (c : Dev nD) (f : Fin 3) (k : Fin 50000) (o : Fin 96) :
    projArr m ρ c (ix3 f k o) = Cert.GraphFilter.feat (xArr m c) (dsArr m c) (wArr m c) f k o := by
  have hp : projArr m ρ c = ProjValue.proj (V1 m ρ c main_arg0) (V1 m ρ c main_arg3) (V1 m ρ c main_v4) :=
    ProjValue.final (V1 m ρ) c
  rw [hp, V1_arg0 m ρ c, V1_arg3 m ρ c]
  unfold ProjValue.proj Cert.GraphFilter.feat
  show (∑ j : Fin 256, xArr m c (ix2 k j) * wArr m c (ix3 f j o)) * dsTArr m ρ c (ix2 k f) = _
  rw [V1_v4 m ρ c k f, mul_comm]

/-- One filter's contribution in the second region is the specification's term. -/
theorem contrib_term (c : Dev nD) (sgn : BitVec 32) (f : Fin 3) (n : Fin 50000) (o : Fin 96) :
    CombineValue.contrib sgn (V3 m ρ c main_v5) (V3 m ρ c main_v31) (V3 m ρ c main_v14) (V3 m ρ c main_v4) f n o
      = Cert.GraphFilter.term (xArr m c) (adjArr m c) (dsArr m c) (wArr m c) (edgeArr m c) sgn f n o := by
  rw [V3_v5 m ρ c, V3_v4 m ρ c]
  unfold CombineValue.contrib Cert.GraphFilter.term
  show dsTArr m ρ c (ix2 n f) * max (spmmArr m ρ c (ix3 f n o)
      + (Ideal.ofBits .f32 sgn * epsArr m ρ c (ix2 n (0 : Fin 1))) * projArr m ρ c (ix3 f n o)) (Ideal.ofBits .f32 0x00000000#32) = _
  rw [V1_v4 m ρ c n f, V3_v31 m ρ c f n o, V3_v14 m ρ c n]
  unfold Cert.GraphFilter.spmm
  simp only [proj_feat m ρ c]

/-- The combination at `(n, o)`, by its coordinates. -/
theorem combine_apply (t s : S3x50000x96.Idx → EReal) (eps : S50000x1.Idx → EReal) (dsT : S50000x3.Idx → EReal)
    (b : S96.Idx → EReal) (n : Fin 50000) (o : Fin 96) :
    CombineValue.combine t s eps dsT b (ix2 n o)
      = (((Ideal.ofBits .f32 0x00000000#32 + CombineValue.contrib 0xBF800000#32 t s eps dsT 0 n o)
          + CombineValue.contrib 0x3F800000#32 t s eps dsT 1 n o)
        + CombineValue.contrib 0x3F800000#32 t s eps dsT 2 n o) + b (ix1 o) := rfl

/-- The specification's output at `(n, o)`, by its coordinates. -/
theorem out_apply (x : S50000x256.Idx → EReal) (adj : S800000.Idx → EReal) (ds : S3x50000.Idx → EReal)
    (w : S3x256x96.Idx → EReal) (b : S96.Idx → EReal) (ei : IVec S2x800000 32) (n : Fin 50000) (o : Fin 96) :
    Cert.GraphFilter.out x adj ds w b ei (ix2 n o)
      = (((Ideal.ofBits .f32 0x00000000#32 + Cert.GraphFilter.term x adj ds w ei 0xBF800000#32 0 n o)
          + Cert.GraphFilter.term x adj ds w ei 0x3F800000#32 1 n o)
        + Cert.GraphFilter.term x adj ds w ei 0x3F800000#32 2 n o) + b (ix1 o) := rfl

/-- THE RESULT: the array the program returns is the graph filter's output of the launch arguments. -/
theorem result_eq (c : Dev nD) :
    W4 m ρ c (Proc.devRef .tc main_v32)
      = Cert.GraphFilter.out (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5)) := by
  have h5 : W4 m ρ c (Proc.devRef .tc main_v32) = (dat1 (F := Ideal) (V3 m ρ) c).arrAt 5 cfg1.N := W4_arr m ρ c 5
  rw [h5, CombineValue.final (V3 m ρ) c]
  funext i
  obtain ⟨n, o, rfl⟩ : ∃ (n : Fin 50000) (o : Fin 96), i = ix2 n o := ⟨i 0, i 1, eq_ix2 i⟩
  rw [combine_apply, contrib_term m ρ c, contrib_term m ρ c, contrib_term m ρ c, V3_arg4 m ρ c]
  exact (out_apply (xArr m c) (adjArr m c) (dsArr m c) (wArr m c) (bArr m c) (edgeArr m c) n o).symm

end Cert.KernelIdeal.KernelValue

end
-- ==== Proof.RefValue.lean ====
/-
  The reference's result, read one operation at a time, is the graph filter's output function of the arguments.

  The reference computes, filter by filter, the scaled projection `ds[f] · (x · w[f])`, gathers its rows at the edges'
  source nodes, weights them by the edge weights and adds them at the edges' target nodes, adds the signed `0.1/deg`
  multiple of the projection, rectifies, scales and accumulates from zero, and adds the bias at the end. Read at an
  index `(n, o)` every operation is pointwise or a layout change except the row gather and the row scatter-add, which
  are read as the table row at the clamped source and as the sum over the edges targeting `n`.

  The proof goes stage by stage, each filter alike: the projection at `(n, o)` is `feat f n o` (the slice and the
  reshape of `w` and of `ds` re-index to row `f`); the sparse product at `(n, o)` is `spmm f n o` (the scatter-add from
  the zero array, whose update at `(e, o)` is `adj[e]` times the gathered row of the projection); the rectified,
  scaled stage is `term sgn f n o`; the last stage is their sum from zero plus the bias. The index columns and the
  `0.1/deg` vector are the same operations on both sides and are never opened.
-/
import proofs.«180509_j31851477467635_1_alg».proof.Proof.Gen.ReferenceIdeal.Read
import proofs.«180509_j31851477467635_1_alg».proof.Proof.Spec
import proofs.«180509_j31851477467635_1_alg».proof.Proof.LibRowOps
import Idealize.ShloMosaic.Lib.Pipeline.Value
import Idealize.ShloMosaic.Lib.ValueIdx
import Idealize.ShloMosaic.PureOps.Ideal.Laws

set_option maxRecDepth 16384

noncomputable section

namespace Cert.ReferenceIdeal.RefValue

open Idealize.ShloMosaic Idealize.ShloMosaic.TcCoe Idealize.ShloMosaic.ValueIdx Idealize.SL.Sem
open Cert.ReferenceIdeal Cert.ReferenceIdeal.Gen Cert.ReferenceIdeal.Read

section Stages

variable (x0 : (⟨S50000x256, .f32⟩ : BufTy).Contents (Elt Ideal)) (x1 : (⟨S800000, .f32⟩ : BufTy).Contents (Elt Ideal))
  (x2 : (⟨S3x50000, .f32⟩ : BufTy).Contents (Elt Ideal)) (x3 : (⟨S3x256x96, .f32⟩ : BufTy).Contents (Elt Ideal))
  (x5 : (⟨S2x800000, .i32⟩ : BufTy).Contents (Elt Ideal))

/-- The reference's `0.1 / deg` vector is the specification's: the same operations on the same target column. -/
theorem eps_v11 : val_main_v11 (F := Ideal) x5 = Cert.GraphFilter.epsOverDeg x5 := rfl

/-- Filter 0's projection stage at `(n, o)`: the node scale `ds[0, n]` times `Σ_k x[n, k] · w[0, k, o]`. -/
theorem feat_v20 (n : Fin 50000) (o : Fin 96) :
    val_main_v20 (F := Ideal) x0 x2 x3 (ix2 n o) = Cert.GraphFilter.feat x0 x2 x3 0 n o := by
  have e1 : idx_main_v13 (idx_main_v14 (idx_main_v15 (idx_main_v19 (ix2 n o)))) = ix2 (0 : Fin 3) n :=
    funext fun a => Fin.ext (by
      match a with
      | ⟨0, _⟩ => rfl
      | ⟨1, _⟩ => exact Nat.mod_eq_of_lt n.isLt)
  have e2 : ∀ k : Fin 256, lidx_main_v18 (ix2 n o) k = ix2 n k := fun k =>
    funext fun a => Fin.ext (by match a with | ⟨0, _⟩ => rfl | ⟨1, _⟩ => rfl)
  have e3 : ∀ k : Fin 256, idx_main_v16 (idx_main_v17 (ridx_main_v18 (ix2 n o) k)) = ix3 (0 : Fin 3) k o := fun k =>
    funext fun a => Fin.ext (by
      have hk := k.isLt
      have ho := o.isLt
      match a with
      | ⟨0, _⟩ => rfl
      | ⟨1, _⟩ => show (k.val * 96 + o.val) / 96 % 256 = k.val; omega
      | ⟨2, _⟩ => show (k.val * 96 + o.val) % 96 = o.val; omega)
  rw [val_main_v20_apply, val_main_v19_apply, val_main_v15_apply, val_main_v14_apply, val_main_v13_apply, val_main_v18_apply, e1]
  unfold Cert.GraphFilter.feat
  rw [Ideal.mulf_def]
  congr 1
  refine Finset.sum_congr rfl fun k _ => ?_
  rw [val_main_v17_apply, val_main_v16_apply, e2, e3]

/-- Filter 1's projection stage at `(n, o)`: the node scale `ds[1, n]` times `Σ_k x[n, k] · w[1, k, o]`. -/
theorem feat_v54 (n : Fin 50000) (o : Fin 96) :
    val_main_v54 (F := Ideal) x0 x2 x3 (ix2 n o) = Cert.GraphFilter.feat x0 x2 x3 1 n o := by
  have e1 : idx_main_v47 (idx_main_v48 (idx_main_v49 (idx_main_v53 (ix2 n o)))) = ix2 (1 : Fin 3) n :=
    funext fun a => Fin.ext (by
      match a with
      | ⟨0, _⟩ => rfl
      | ⟨1, _⟩ => exact Nat.mod_eq_of_lt n.isLt)
  have e2 : ∀ k : Fin 256, lidx_main_v52 (ix2 n o) k = ix2 n k := fun k =>
    funext fun a => Fin.ext (by match a with | ⟨0, _⟩ => rfl | ⟨1, _⟩ => rfl)
  have e3 : ∀ k : Fin 256, idx_main_v50 (idx_main_v51 (ridx_main_v52 (ix2 n o) k)) = ix3 (1 : Fin 3) k o := fun k =>
    funext fun a => Fin.ext (by
      have hk := k.isLt
      have ho := o.isLt
      match a with
      | ⟨0, _⟩ => rfl
      | ⟨1, _⟩ => show (k.val * 96 + o.val) / 96 % 256 = k.val; omega
      | ⟨2, _⟩ => show (k.val * 96 + o.val) % 96 = o.val; omega)
  rw [val_main_v54_apply, val_main_v53_apply, val_main_v49_apply, val_main_v48_apply, val_main_v47_apply, val_main_v52_apply, e1]
  unfold Cert.GraphFilter.feat
  rw [Ideal.mulf_def]
  congr 1
  refine Finset.sum_congr rfl fun k _ => ?_
  rw [val_main_v51_apply, val_main_v50_apply, e2, e3]

/-- Filter 2's projection stage at `(n, o)`: the node scale `ds[2, n]` times `Σ_k x[n, k] · w[2, k, o]`. -/
theorem feat_v88 (n : Fin 50000) (o : Fin 96) :
    val_main_v88 (F := Ideal) x0 x2 x3 (ix2 n o) = Cert.GraphFilter.feat x0 x2 x3 2 n o := by
  have e1 : idx_main_v81 (idx_main_v82 (idx_main_v83 (idx_main_v87 (ix2 n o)))) = ix2 (2 : Fin 3) n :=
    funext fun a => Fin.ext (by
      match a with
      | ⟨0, _⟩ => rfl
      | ⟨1, _⟩ => exact Nat.mod_eq_of_lt n.isLt)
  have e2 : ∀ k : Fin 256, lidx_main_v86 (ix2 n o) k = ix2 n k := fun k =>
    funext fun a => Fin.ext (by match a with | ⟨0, _⟩ => rfl | ⟨1, _⟩ => rfl)
  have e3 : ∀ k : Fin 256, idx_main_v84 (idx_main_v85 (ridx_main_v86 (ix2 n o) k)) = ix3 (2 : Fin 3) k o := fun k =>
    funext fun a => Fin.ext (by
      have hk := k.isLt
      have ho := o.isLt
      match a with
      | ⟨0, _⟩ => rfl
      | ⟨1, _⟩ => show (k.val * 96 + o.val) / 96 % 256 = k.val; omega
      | ⟨2, _⟩ => show (k.val * 96 + o.val) % 96 = o.val; omega)
  rw [val_main_v88_apply, val_main_v87_apply, val_main_v83_apply, val_main_v82_apply, val_main_v81_apply, val_main_v86_apply, e1]
  unfold Cert.GraphFilter.feat
  rw [Ideal.mulf_def]
  congr 1
  refine Finset.sum_congr rfl fun k _ => ?_
  rw [val_main_v85_apply, val_main_v84_apply, e2, e3]

/-- Filter 0's sparse product at `(n, o)`: zero plus, over the edges targeting `n`, the edge weight times the
    projection's row at the edge's clamped source. -/
theorem spmm_v33 (n : Fin 50000) (o : Fin 96) :
    val_main_v33 (F := Ideal) x0 x1 x2 x3 x5 (ix2 n o) = Cert.GraphFilter.spmm x0 x1 x2 x3 x5 0 n o := by
  have h0 : val_main_v31 (F := Ideal) (ix2 n o) = Ideal.ofBits .f32 0x00000000#32 := by
    rw [val_main_v31_apply, val_main_cst_5_apply]; rfl
  have he : ∀ e : Fin 800000, idx_main_v21 (idx_main_v29 (ix2 e o)) = ix1 e := fun e =>
    funext fun a => Fin.ext (by match a with | ⟨0, _⟩ => rfl)
  unfold val_main_v33
  rw [Idealize.ShloMosaic.RowOps.rowScatterAdd_apply scatter_S50000x96_S800000x1_S800000x96_1_0_0_1 rfl rfl rfl rfl, h0]
  unfold Cert.GraphFilter.spmm
  refine congrArg (fun s => Ideal.ofBits .f32 0x00000000#32 + s) ?_
  refine Finset.sum_congr rfl fun e _ => ?_
  rw [val_main_v30_apply, val_main_v29_apply, val_main_v21_apply, Ideal.mulf_def, he]
  unfold val_main_v28
  rw [Idealize.ShloMosaic.RowOps.rowGather_apply (by decide) gather_S50000x96_S800000x1_S800000x96_1_0_n_n_0_1_196 rfl rfl rfl rfl rfl rfl rfl, feat_v20]
  rfl

/-- Filter 1's sparse product at `(n, o)`. -/
theorem spmm_v67 (n : Fin 50000) (o : Fin 96) :
    val_main_v67 (F := Ideal) x0 x1 x2 x3 x5 (ix2 n o) = Cert.GraphFilter.spmm x0 x1 x2 x3 x5 1 n o := by
  have h0 : val_main_v65 (F := Ideal) (ix2 n o) = Ideal.ofBits .f32 0x00000000#32 := by
    rw [val_main_v65_apply, val_main_cst_9_apply]; rfl
  have he : ∀ e : Fin 800000, idx_main_v55 (idx_main_v63 (ix2 e o)) = ix1 e := fun e =>
    funext fun a => Fin.ext (by match a with | ⟨0, _⟩ => rfl)
  unfold val_main_v67
  rw [Idealize.ShloMosaic.RowOps.rowScatterAdd_apply scatter_S50000x96_S800000x1_S800000x96_1_0_0_1 rfl rfl rfl rfl, h0]
  unfold Cert.GraphFilter.spmm
  refine congrArg (fun s => Ideal.ofBits .f32 0x00000000#32 + s) ?_
  refine Finset.sum_congr rfl fun e _ => ?_
  rw [val_main_v64_apply, val_main_v63_apply, val_main_v55_apply, Ideal.mulf_def, he]
  unfold val_main_v62
  rw [Idealize.ShloMosaic.RowOps.rowGather_apply (by decide) gather_S50000x96_S800000x1_S800000x96_1_0_n_n_0_1_196 rfl rfl rfl rfl rfl rfl rfl, feat_v54]
  rfl

/-- Filter 2's sparse product at `(n, o)`. -/
theorem spmm_v101 (n : Fin 50000) (o : Fin 96) :
    val_main_v101 (F := Ideal) x0 x1 x2 x3 x5 (ix2 n o) = Cert.GraphFilter.spmm x0 x1 x2 x3 x5 2 n o := by
  have h0 : val_main_v99 (F := Ideal) (ix2 n o) = Ideal.ofBits .f32 0x00000000#32 := by
    rw [val_main_v99_apply, val_main_cst_13_apply]; rfl
  have he : ∀ e : Fin 800000, idx_main_v89 (idx_main_v97 (ix2 e o)) = ix1 e := fun e =>
    funext fun a => Fin.ext (by match a with | ⟨0, _⟩ => rfl)
  unfold val_main_v101
  rw [Idealize.ShloMosaic.RowOps.rowScatterAdd_apply scatter_S50000x96_S800000x1_S800000x96_1_0_0_1 rfl rfl rfl rfl, h0]
  unfold Cert.GraphFilter.spmm
  refine congrArg (fun s => Ideal.ofBits .f32 0x00000000#32 + s) ?_
  refine Finset.sum_congr rfl fun e _ => ?_
  rw [val_main_v98_apply, val_main_v97_apply, val_main_v89_apply, Ideal.mulf_def, he]
  unfold val_main_v96
  rw [Idealize.ShloMosaic.RowOps.rowGather_apply (by decide) gather_S50000x96_S800000x1_S800000x96_1_0_n_n_0_1_196 rfl rfl rfl rfl rfl rfl rfl, feat_v88]
  rfl

/-- Filter 0's contribution at `(n, o)`: `ds[0, n] · max (spmm + (−1 · 0.1/deg n) · feat) 0`. -/
theorem term_v45 (n : Fin 50000) (o : Fin 96) :
    val_main_v45 (F := Ideal) x0 x1 x2 x3 x5 (ix2 n o) = Cert.GraphFilter.term x0 x1 x2 x3 x5 0xBF800000#32 0 n o := by
  have e1 : idx_main_v40 (idx_main_v41 (idx_main_v42 (idx_main_v44 (ix2 n o)))) = ix2 (0 : Fin 3) n :=
    funext fun a => Fin.ext (by
      match a with
      | ⟨0, _⟩ => rfl
      | ⟨1, _⟩ => exact Nat.mod_eq_of_lt n.isLt)
  have e2 : idx_main_v34 (idx_main_v37 (ix2 n o)) = ix1 n :=
    funext fun a => Fin.ext (by match a with | ⟨0, _⟩ => rfl)
  rw [val_main_v45_apply, val_main_v44_apply, val_main_v42_apply, val_main_v41_apply, val_main_v40_apply, e1,
    val_main_v43_apply, val_main_v39_apply, spmm_v33, val_main_v38_apply, feat_v20, val_main_v37_apply,
    val_main_v36_apply, val_main_v35_apply, val_main_cst_6_apply, val_main_v34_apply, e2, eps_v11,
    val_main_call0_v0_apply, val_main_call0_cst_apply]
  rfl

/-- Filter 1's contribution at `(n, o)`: `ds[1, n] · max (spmm + (1 · 0.1/deg n) · feat) 0`. -/
theorem term_v79 (n : Fin 50000) (o : Fin 96) :
    val_main_v79 (F := Ideal) x0 x1 x2 x3 x5 (ix2 n o) = Cert.GraphFilter.term x0 x1 x2 x3 x5 0x3F800000#32 1 n o := by
  have e1 : idx_main_v74 (idx_main_v75 (idx_main_v76 (idx_main_v78 (ix2 n o)))) = ix2 (1 : Fin 3) n :=
    funext fun a => Fin.ext (by
      match a with
      | ⟨0, _⟩ => rfl
      | ⟨1, _⟩ => exact Nat.mod_eq_of_lt n.isLt)
  have e2 : idx_main_v68 (idx_main_v71 (ix2 n o)) = ix1 n :=
    funext fun a => Fin.ext (by match a with | ⟨0, _⟩ => rfl)
  rw [val_main_v79_apply, val_main_v78_apply, val_main_v76_apply, val_main_v75_apply, val_main_v74_apply, e1,
    val_main_v77_apply, val_main_v73_apply, spmm_v67, val_main_v72_apply, feat_v54, val_main_v71_apply,
    val_main_v70_apply, val_main_v69_apply, val_main_cst_10_apply, val_main_v68_apply, e2, eps_v11,
    val_main_call1_v0_apply, val_main_call1_cst_apply]
  rfl

/-- Filter 2's contribution at `(n, o)`: `ds[2, n] · max (spmm + (1 · 0.1/deg n) · feat) 0`. -/
theorem term_v113 (n : Fin 50000) (o : Fin 96) :
    val_main_v113 (F := Ideal) x0 x1 x2 x3 x5 (ix2 n o) = Cert.GraphFilter.term x0 x1 x2 x3 x5 0x3F800000#32 2 n o := by
  have e1 : idx_main_v108 (idx_main_v109 (idx_main_v110 (idx_main_v112 (ix2 n o)))) = ix2 (2 : Fin 3) n :=
    funext fun a => Fin.ext (by
      match a with
      | ⟨0, _⟩ => rfl
      | ⟨1, _⟩ => exact Nat.mod_eq_of_lt n.isLt)
  have e2 : idx_main_v102 (idx_main_v105 (ix2 n o)) = ix1 n :=
    funext fun a => Fin.ext (by match a with | ⟨0, _⟩ => rfl)
  rw [val_main_v113_apply, val_main_v112_apply, val_main_v110_apply, val_main_v109_apply, val_main_v108_apply, e1,
    val_main_v111_apply, val_main_v107_apply, spmm_v101, val_main_v106_apply, feat_v88, val_main_v105_apply,
    val_main_v104_apply, val_main_v103_apply, val_main_cst_14_apply, val_main_v102_apply, e2, eps_v11,
    val_main_call2_v0_apply, val_main_call2_cst_apply]
  rfl

end Stages

/-- The reference's last stage is the graph filter's output. -/
theorem ref_out (x0 : (⟨S50000x256, .f32⟩ : BufTy).Contents (Elt Ideal)) (x1 : (⟨S800000, .f32⟩ : BufTy).Contents (Elt Ideal))
    (x2 : (⟨S3x50000, .f32⟩ : BufTy).Contents (Elt Ideal)) (x3 : (⟨S3x256x96, .f32⟩ : BufTy).Contents (Elt Ideal))
    (x4 : (⟨S96, .f32⟩ : BufTy).Contents (Elt Ideal)) (x5 : (⟨S2x800000, .i32⟩ : BufTy).Contents (Elt Ideal)) :
    val_main_v117 (F := Ideal) x0 x1 x2 x3 x4 x5 = Cert.GraphFilter.out x0 x1 x2 x3 x4 x5 := by
  funext i
  obtain ⟨n, o, rfl⟩ : ∃ (n : Fin 50000) (o : Fin 96), i = ix2 n o := ⟨i 0, i 1, eq_ix2 i⟩
  have eb : idx_main_v115 (idx_main_v116 (ix2 n o)) = ix1 o :=
    funext fun a => Fin.ext (by match a with | ⟨0, _⟩ => rfl)
  rw [val_main_v117_apply, val_main_v114_apply, val_main_v80_apply, val_main_v46_apply, term_v45, term_v79, term_v113,
    val_main_v12_apply, val_main_cst_3_apply, val_main_v116_apply, val_main_v115_apply, eb]
  rfl

end Cert.ReferenceIdeal.RefValue

end
-- ==== Proof.lean ====
/-
  The certificate of a chained sparse spectral graph filter against its reference.

  Both programs compute, for node features `x`, edge weights `adj`, node scales `ds`, filter weights `w`, a bias `b` and
  an edge list `ei`, the layer output

    out[n, o] = (((0 + ds[0,n] · relu (spmm_0[n,o] − (0.1/deg n) · t_0[n,o]))
                     + ds[1,n] · relu (spmm_1[n,o] + (0.1/deg n) · t_1[n,o]))
                     + ds[2,n] · relu (spmm_2[n,o] + (0.1/deg n) · t_2[n,o])) + b[o],

  with `t_f = ds[f] · (x · w[f])` the scaled projection, `spmm_f` the sparse product of the weighted adjacency with
  `t_f` over the edge list, and `deg` the degree with a self loop. The kernel program computes the three projections in one
  tiled region (scaling the product on the other side), the degree and one sparse product over all `3 · 96` columns
  at once on the host, and the combination in a second tiled region; the reference does everything on the host, one
  filter after the other. At the ideal values the two are one function of the arguments: the products of extended
  reals commute, a block product into a zero accumulator is the plain sum, and column `96·f + o` of the wide sparse
  product is filter `f`'s sparse product at column `o`. No step needs the inputs finite.

  The three frames are the generated ones (the reference's is its run with the result dropped), the idealization
  rewrote nothing, and the value claim posts both runs at the same function (`Cert.GraphFilter.out`).
-/
import proofs.«180509_j31851477467635_1_alg».proof.Defs
import proofs.«180509_j31851477467635_1_alg».proof.Proof.Gen.Kernel
import proofs.«180509_j31851477467635_1_alg».proof.Proof.Gen.Kernel.Frame
import proofs.«180509_j31851477467635_1_alg».proof.Proof.Gen.KernelIdeal
import proofs.«180509_j31851477467635_1_alg».proof.Proof.Gen.KernelIdeal.Frame
import proofs.«180509_j31851477467635_1_alg».proof.Proof.Gen.ReferenceIdeal
import proofs.«180509_j31851477467635_1_alg».proof.Proof.Gen.Pre_finite_inputs
import proofs.«180509_j31851477467635_1_alg».proof.Proof.Gen.ReferenceIdeal.Run
import proofs.«180509_j31851477467635_1_alg».proof.Proof.Gen.ReferenceIdeal.Read
import proofs.«180509_j31851477467635_1_alg».proof.Proof.KernelRun
import proofs.«180509_j31851477467635_1_alg».proof.Proof.KernelValue
import proofs.«180509_j31851477467635_1_alg».proof.Proof.RefValue
import Idealize.ShloMosaic.Adequacy
import Idealize.ShloMosaic.Init

noncomputable section

namespace Cert.Proof

open Idealize.ShloMosaic Idealize.ShloMosaic.TcCoe Idealize.SL.Sem

/-- The kernel program terminates without a fault and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments both programs end with the graph filter's output of those arguments. -/
theorem algebraic : Cert.algebraic_KernelIdeal_ReferenceIdeal := by
  intro m ρ m' ρ' _ hagree
  refine ⟨fun c => Cert.GraphFilter.out
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.KernelValue.result_eq m ρ c), (h c).2⟩)
      (Cert.KernelIdeal.RunValue.run (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v117_eq, Cert.ReferenceIdeal.RefValue.ref_out,
      (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
